-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x16384 : Shape := ⟨2, ![12288, 16384]⟩
abbrev S2x524288 : Shape := ⟨2, ![2, 524288]⟩
abbrev S16384x5 : Shape := ⟨2, ![16384, 5]⟩
abbrev S5 : Shape := ⟨1, ![5]⟩
abbrev S5x1 : Shape := ⟨2, ![5, 1]⟩
abbrev S1 : Shape := ⟨1, ![1]⟩
abbrev S_ : Shape := ⟨0, ![]⟩

class Facts : Prop where
  bcast_S_S12288x16384 : S_.BroadcastsInDim S12288x16384 (![] : Fin 0 → Fin S12288x16384.rank)
  reducesTo_S12288x16384_S_d0_1 : S12288x16384.ReducesTo [0, 1] S_
  h_S_ : 0 < S_.numel
  bcast_S_S16384x5 : S_.BroadcastsInDim S16384x5 (![] : Fin 0 → Fin S16384x5.rank)
  reducesTo_S16384x5_S_d0_1 : S16384x5.ReducesTo [0, 1] S_
  bcast_S_S5 : S_.BroadcastsInDim S5 (![] : Fin 0 → Fin S5.rank)
  reducesTo_S5_S_d0 : S5.ReducesTo [0] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S5x1 1) : IVec S_ 1 :=
  let main_c_5 : IVec S_ 1 := constantI S_ 1 1#1
  let main_v17 : IVec S_ 1 := (fun x v => Host.reduce IntOp.andi x v reducesTo_S5x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S12288x16384 .f32) (main_arg1 : IVec S2x524288 32) (main_arg2 : FVec F S16384x5 .f32) (main_arg3 : FVec F S5 .f32) (main_arg4 : FVec F S5x1 .f32) (main_arg5 : FVec F S1 .f32) : IVec S_ 1 :=
  let main_v0 : FVec F S12288x16384 .f32 := Host.absf main_arg0
  let main_cst : FVec F S_ .f32 := constant S_ .f32 0x7F800000#32
  let main_v1 : FVec F S12288x16384 .f32 := broadcastInDim S12288x16384 ![] bcast_S_S12288x16384 main_cst
  let main_v2 : IVec S12288x16384 1 := cmpf .olt main_v0 main_v1
  let main_c : IVec S_ 1 := constantI S_ 1 1#1
  let main_v3 : IVec S_ 1 := (fun x v => Host.reduce IntOp.andi x v reducesTo_S12288x16384_S_d0_1 h_S_) main_v2 main_c
  let main_v4 : FVec F S16384x5 .f32 := Host.absf main_arg2
  let main_cst_0 : FVec F S_ .f32 := constant S_ .f32 0x7F800000#32
  let main_v5 : FVec F S16384x5 .f32 := broadcastInDim S16384x5 ![] bcast_S_S16384x5 main_cst_0
  let main_v6 : IVec S16384x5 1 := cmpf .olt main_v4 main_v5
  let main_c_1 : IVec S_ 1 := constantI S_ 1 1#1
  let main_v7 : IVec S_ 1 := (fun x v => Host.reduce IntOp.andi x v reducesTo_S16384x5_S_d0_1 h_S_) main_v6 main_c_1
  let main_v8 : IVec S_ 1 := andi main_v3 main_v7
  let main_v9 : FVec F S5 .f32 := Host.absf main_arg3
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x1 .f32 := Host.absf main_arg4
  let main_cst_4 : FVec F S_ .f32 := constant S_ .f32 0x7F800000#32
  let main_v15 : FVec F S5x1 .f32 := broadcastInDim S5x1 ![] bcast_S_S5x1 main_cst_4
  let main_v16 : IVec S5x1 1 := cmpf .olt main_v14 main_v15
  fn_part1 (F := F) main_arg5 main_v13 main_v16
-- ==== Kernel.lean ====
abbrev S12288x16384 : Shape := ⟨2, ![12288, 16384]⟩
abbrev S2x524288 : Shape := ⟨2, ![2, 524288]⟩
abbrev S16384x5 : Shape := ⟨2, ![16384, 5]⟩
abbrev S5 : Shape := ⟨1, ![5]⟩
abbrev S5x1 : Shape := ⟨2, ![5, 1]⟩
abbrev S1 : Shape := ⟨1, ![1]⟩
abbrev S12288x5 : Shape := ⟨2, ![12288, 5]⟩
abbrev S1024x2048 : Shape := ⟨2, ![1024, 2048]⟩
abbrev S2048x5 : Shape := ⟨2, ![2048, 5]⟩
abbrev S1024x5 : Shape := ⟨2, ![1024, 5]⟩
abbrev S_ : Shape := ⟨0, ![]⟩
abbrev S4096x5 : Shape := ⟨2, ![4096, 5]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S540672x1 : Shape := ⟨2, ![540672, 1]⟩
abbrev S540672x5 : Shape := ⟨2, ![540672, 5]⟩
abbrev S1x5 : Shape := ⟨2, ![1, 5]⟩
abbrev S16384x1 : Shape := ⟨2, ![16384, 1]⟩
abbrev S1x1 : Shape := ⟨2, ![1, 1]⟩

abbrev nBuf : Space → Nat
  | .hbm => 150
  | .vmem => 7
  | .smem => 0
  | _ => 0

abbrev hbmTy0_0 (i : Nat) : BufTy := match i % 128 with
  | 0 => ⟨S12288x16384, .f32⟩
  | 1 => ⟨S2x524288, .i32⟩
  | 2 => ⟨S16384x5, .f32⟩
  | 3 => ⟨S5, .f32⟩
  | 4 => ⟨S5x1, .f32⟩
  | 5 => ⟨S1, .f32⟩
  | 6 => ⟨S12288x5, .f32⟩
  | 7 => ⟨S_, .f32⟩
  | 8 => ⟨S4096x5, .f32⟩
  | 9 => ⟨S16384x5, .f32⟩
  | 10 => ⟨S16384, .i32⟩
  | 11 => ⟨S1x524288, .i32⟩
  | 12 => ⟨S524288, .i32⟩
  | 13 => ⟨S540672, .i32⟩
  | 14 => ⟨S1x524288, .i32⟩
  | 15 => ⟨S524288, .i32⟩
  | 16 => ⟨S540672, .i32⟩
  | 17 => ⟨S_, .f32⟩
  | 18 => ⟨S540672, .f32⟩
  | 19 => ⟨S_, .f32⟩
  | 20 => ⟨S16384, .f32⟩
  | 21 => ⟨S540672x1, .i32⟩
  | 22 => ⟨S16384, .f32⟩
  | 23 => ⟨S_, .f32⟩
  | 24 => ⟨S16384, .f32⟩
  | 25 => ⟨S16384, .i1⟩
  | 26 => ⟨S_, .f32⟩
  | 27 => ⟨S16384, .f32⟩
  | 28 => ⟨S16384, .f32⟩
  | 29 => ⟨S16384, .f32⟩
  | 30 => ⟨S_, .f32⟩
  | 31 => ⟨S_, .f32⟩
  | 32 => ⟨S16384, .f32⟩
  | 33 => ⟨S16384, .f32⟩
  | 34 => ⟨S_, .i32⟩
  | 35 => ⟨S540672, .i32⟩
  | 36 => ⟨S540672, .i1⟩
  | 37 => ⟨S_, .i32⟩
  | 38 => ⟨S540672, .i32⟩
  | 39 => ⟨S540672, .i32⟩
  | 40 => ⟨S540672, .i32⟩
  | 41 => ⟨S540672x1, .i32⟩
  | 42 => ⟨S540672, .f32⟩
  | 43 => ⟨S_, .i32⟩
  | 44 => ⟨S540672, .i32⟩
  | 45 => ⟨S540672, .i1⟩
  | 46 => ⟨S_, .i32⟩
  | 47 => ⟨S540672, .i32⟩
  | 48 => ⟨S540672, .i32⟩
  | 49 => ⟨S540672, .i32⟩
  | 50 => ⟨S540672x1, .i32⟩
  | 51 => ⟨S540672, .f32⟩
  | 52 => ⟨S540672, .f32⟩
  | 53 => ⟨S_, .i32⟩
  | 54 => ⟨S540672, .i32⟩
  | 55 => ⟨S540672, .i1⟩
  | 56 => ⟨S_, .i32⟩
  | 57 => ⟨S540672, .i32⟩
  | 58 => ⟨S540672, .i32⟩
  | 59 => ⟨S540672, .i32⟩
  | 60 => ⟨S540672x1, .i32⟩
  | 61 => ⟨S540672x5, .f32⟩
  | 62 => ⟨S540672x1, .f32⟩
  | 63 => ⟨S540672x5, .f32⟩
  | 64 => ⟨S540672x5, .f32⟩
  | 65 => ⟨S_, .f32⟩
  | 66 => ⟨S16384x5, .f32⟩
  | 67 => ⟨S540672x1, .i32⟩
  | 68 => ⟨S16384x5, .f32⟩
  | 69 => ⟨S1x5, .f32⟩
  | 70 => ⟨S16384x5, .f32⟩
  | 71 => ⟨S16384x5, .f32⟩
  | 72 => ⟨S_, .f32⟩
  | 73 => ⟨S16384x5, .f32⟩
  | 74 => ⟨S16384x5, .f32⟩
  | 75 => ⟨S16384x1, .f32⟩
  | 76 => ⟨S16384, .i32⟩
  | 77 => ⟨S1x524288, .i32⟩
  | 78 => ⟨S524288, .i32⟩
  | 79 => ⟨S540672, .i32⟩
  | 80 => ⟨S1x524288, .i32⟩
  | 81 => ⟨S524288, .i32⟩
  | 82 => ⟨S540672, .i32⟩
  | 83 => ⟨S_, .f32⟩
  | 84 => ⟨S540672, .f32⟩
  | 85 => ⟨S_, .f32⟩
  | 86 => ⟨S16384, .f32⟩
  | 87 => ⟨S540672x1, .i32⟩
  | 88 => ⟨S16384, .f32⟩
  | 89 => ⟨S_, .f32⟩
  | 90 => ⟨S16384, .f32⟩
  | 91 => ⟨S16384, .i1⟩
  | 92 => ⟨S_, .f32⟩
  | 93 => ⟨S16384, .f32⟩
  | 94 => ⟨S16384, .f32⟩
  | 95 => ⟨S16384, .f32⟩
  | 96 => ⟨S_, .f32⟩
  | 97 => ⟨S_, .f32⟩
  | 98 => ⟨S16384, .f32⟩
  | 99 => ⟨S16384, .f32⟩
  | 100 => ⟨S_, .i32⟩
  | 101 => ⟨S540672, .i32⟩
  | 102 => ⟨S540672, .i1⟩
  | 103 => ⟨S_, .i32⟩
  | 104 => ⟨S540672, .i32⟩
  | 105 => ⟨S540672, .i32⟩
  | 106 => ⟨S540672, .i32⟩
  | 107 => ⟨S540672x1, .i32⟩
  | 108 => ⟨S540672, .f32⟩
  | 109 => ⟨S_, .i32⟩
  | 110 => ⟨S540672, .i32⟩
  | 111 => ⟨S540672, .i1⟩
  | 112 => ⟨S_, .i32⟩
  | 113 => ⟨S540672, .i32⟩
  | 114 => ⟨S540672, .i32⟩
  | 115 => ⟨S540672, .i32⟩
  | 116 => ⟨S540672x1, .i32⟩
  | 117 => ⟨S540672, .f32⟩
  | 118 => ⟨S540672, .f32⟩
  | 119 => ⟨S_, .i32⟩
  | 120 => ⟨S540672, .i32⟩
  | 121 => ⟨S540672, .i1⟩
  | 122 => ⟨S_, .i32⟩
  | 123 => ⟨S540672, .i32⟩
  | 124 => ⟨S540672, .i32⟩
  | 125 => ⟨S540672, .i32⟩
  | 126 => ⟨S540672x1, .i32⟩
  | 127 => ⟨S540672x1, .f32⟩
  | _ => ⟨S12288x16384, .f32⟩

abbrev hbmTy0_1 (i : Nat) : BufTy := match i % 128 with
  | 0 => ⟨S540672x1, .f32⟩
  | 1 => ⟨S540672x1, .f32⟩
  | 2 => ⟨S_, .f32⟩
  | 3 => ⟨S16384x1, .f32⟩
  | 4 => ⟨S540672x1, .i32⟩
  | 5 => ⟨S16384x1, .f32⟩
  | 6 => ⟨S1x1, .f32⟩
  | 7 => ⟨S16384x1, .f32⟩
  | 8 => ⟨S16384x1, .f32⟩
  | 9 => ⟨S_, .f32⟩
  | 10 => ⟨S16384, .f32⟩
  | 11 => ⟨S_, .f32⟩
  | 12 => ⟨S16384, .f32⟩
  | 13 => ⟨S16384, .f32⟩
  | 14 => ⟨S16384x1, .f32⟩
  | 15 => ⟨S16384x1, .f32⟩
  | 16 => ⟨S16384x1, .f32⟩
  | 17 => ⟨S_, .f32⟩
  | 18 => ⟨S16384, .f32⟩
  | 19 => ⟨S16384x1, .f32⟩
  | 20 => ⟨S16384x1, .f32⟩
  | 21 => ⟨S16384x1, .f32⟩
  | _ => ⟨S12288x16384, .f32⟩

abbrev hbmTy (i : Nat) : BufTy := match i / 128 with
  | 0 => hbmTy0_0 i
  | 1 => hbmTy0_1 i
  | _ => ⟨S12288x16384, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S2048x5, .f32⟩
  | .local _ .vmem, ⟨3, _⟩ => ⟨S2048x5, .f32⟩
  | .local _ .vmem, ⟨4, _⟩ => ⟨S1024x5, .f32⟩
  | .local _ .vmem, ⟨5, _⟩ => ⟨S1024x5, .f32⟩
  | .local _ .vmem, ⟨6, _⟩ => ⟨S1024x5, .f32⟩
  | _, _ => ⟨S12288x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_call2_v0 : Ref sig .tc := ⟨.hbm, 97, rfl⟩
abbrev main_call2_v1 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_c_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_22 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_call3_cst : Ref sig .tc := ⟨.hbm, 137, rfl⟩
abbrev main_call3_v0 : Ref sig .tc := ⟨.hbm, 138, rfl⟩
abbrev main_call3_cst_0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_cst_1 : Ref sig .tc := ⟨.hbm, 145, rfl⟩
abbrev main_call3_v6 : Ref sig .tc := ⟨.hbm, 146, rfl⟩
abbrev main_call3_v7 : Ref sig .tc := ⟨.hbm, 147, rfl⟩
abbrev main_call3_v8 : Ref sig .tc := ⟨.hbm, 148, rfl⟩
abbrev main_v100 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x5_S1024x5_0_0 : ∀ a, (![0, 0] : Fin 2 → Nat) a + S1024x5.size a ≤ S1024x5.size a
  h_S1024x5 : 0 < S1024x5.numel
  shapeCasts_S1024x5_S1024x5 : S1024x5.ShapeCasts S1024x5
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x5_S2048x5_0_0 : ∀ a, (![0, 0] : Fin 2 → Nat) a + S2048x5.size a ≤ S2048x5.size a
  h_S2048x5 : 0 < S2048x5.numel
  bcast_S_S4096x5 : S_.BroadcastsInDim S4096x5 (![] : Fin 0 → Fin S4096x5.rank)
  concatenates_S12288x5_S4096x5_S16384x5_d0 : Shape.Concatenates [S12288x5, S4096x5] S16384x5 0
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x5_0_1 : S540672x1.BroadcastsInDim S540672x5 (![0, 1] : Fin 2 → Fin S540672x5.rank)
  bcast_S_S16384x5 : S_.BroadcastsInDim S16384x5 (![] : Fin 0 → Fin S16384x5.rank)
  bcast_S5_S1x5_1 : S5.BroadcastsInDim S1x5 (![1] : Fin 1 → Fin S1x5.rank)
  bcast_S1x5_S16384x5_0_1 : S1x5.BroadcastsInDim S16384x5 (![0, 1] : Fin 2 → Fin S16384x5.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x1_0 : S16384.BroadcastsInDim S16384x1 (![0] : Fin 1 → Fin S16384x1.rank)
  dot_S1024x2048_S2048x5_S1024x5_1_0_0_1_n_n_wf : DotDims.WF S1024x2048 S2048x5 S1024x5 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x5_S540672x1_S540672x5_1_0_n_n_0_1_15_wf : GatherDims.WF S16384x5 S540672x1 S540672x5 [1] [0] [] [0] [] 1 ![1, 5]
  scatter_S16384x5_S540672x1_S540672x5_1_0_0_1_wf : ScatterDims.WF S16384x5 S540672x1 S540672x5 [1] [0] [0] 1
  dot_S16384x5_S5x1_S16384x1_1_0_0_1_n_n_wf : DotDims.WF S16384x5 S5x1 S16384x1 [1] [0] [0] [1] [] []
  gather_S16384x1_S540672x1_S540672x1_1_0_n_n_0_1_11_wf : GatherDims.WF S16384x1 S540672x1 S540672x1 [1] [0] [] [0] [] 1 ![1, 1]
  scatter_S16384x1_S540672x1_S540672x1_1_0_0_1_wf : ScatterDims.WF S16384x1 S540672x1 S540672x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S12288x16384.size a
  hwx0_0 : ∀ i : grid0.Coords, EltTy.bits .f32 = 32 ∨ (Rect.block (s := S12288x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x5.size a ≤ S16384x5.size a
  hwx0_1 : ∀ i : grid0.Coords, EltTy.bits .f32 = 32 ∨ (Rect.block (s := S16384x5) S2048x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x5.size a ≤ S12288x5.size a
  hwx0_2 : ∀ i : grid0.Coords, EltTy.bits .f32 = 32 ∨ (Rect.block (s := S12288x5) S1024x5.size (cc0_transform_2 i) (hinb0_2 i)).WholeWords (EltTy.packing .f32)

variable [Facts₀]

def dot_S1024x2048_S2048x5_S1024x5_1_0_0_1_n_n : DotDims S1024x2048 S2048x5 S1024x5 where
  lhsContracting := [1]
  rhsContracting := [0]
  lhsNonContracting := [0]
  rhsNonContracting := [1]
  lhsBatch := []
  rhsBatch := []
  wf := dot_S1024x2048_S2048x5_S1024x5_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x5_S540672x1_S540672x5_1_0_n_n_0_1_15 : GatherDims S16384x5 S540672x1 S540672x5 where
  offsetDims := [1]
  collapsedSliceDims := [0]
  operandBatchingDims := []
  startIndicesBatchingDims := []
  startIndexMap := [0]
  indexVectorDim := 1
  sliceSizes := ![1, 5]
  wf := gather_S16384x5_S540672x1_S540672x5_1_0_n_n_0_1_15_wf
def scatter_S16384x5_S540672x1_S540672x5_1_0_0_1 : ScatterDims S16384x5 S540672x1 S540672x5 where
  updateWindowDims := [1]
  insertedWindowDims := [0]
  scatterDimsToOperandDims := [0]
  indexVectorDim := 1
  wf := scatter_S16384x5_S540672x1_S540672x5_1_0_0_1_wf
def dot_S16384x5_S5x1_S16384x1_1_0_0_1_n_n : DotDims S16384x5 S5x1 S16384x1 where
  lhsContracting := [1]
  rhsContracting := [0]
  lhsNonContracting := [0]
  rhsNonContracting := [1]
  lhsBatch := []
  rhsBatch := []
  wf := dot_S16384x5_S5x1_S16384x1_1_0_0_1_n_n_wf
def gather_S16384x1_S540672x1_S540672x1_1_0_n_n_0_1_11 : GatherDims S16384x1 S540672x1 S540672x1 where
  offsetDims := [1]
  collapsedSliceDims := [0]
  operandBatchingDims := []
  startIndicesBatchingDims := []
  startIndexMap := [0]
  indexVectorDim := 1
  sliceSizes := ![1, 1]
  wf := gather_S16384x1_S540672x1_S540672x1_1_0_n_n_0_1_11_wf
def scatter_S16384x1_S540672x1_S540672x1_1_0_0_1 : ScatterDims S16384x1 S540672x1 S540672x1 where
  updateWindowDims := [1]
  insertedWindowDims := [0]
  scatterDimsToOperandDims := [0]
  indexVectorDim := 1
  wf := scatter_S16384x1_S540672x1_S540672x1_1_0_0_1_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S12288x16384 : Shape := ⟨2, ![12288, 16384]⟩
abbrev S2x524288 : Shape := ⟨2, ![2, 524288]⟩
abbrev S16384x5 : Shape := ⟨2, ![16384, 5]⟩
abbrev S5 : Shape := ⟨1, ![5]⟩
abbrev S5x1 : Shape := ⟨2, ![5, 1]⟩
abbrev S1 : Shape := ⟨1, ![1]⟩
abbrev S_ : Shape := ⟨0, ![]⟩
abbrev S4096x16384 : Shape := ⟨2, ![4096, 16384]⟩
abbrev S16384x16384 : Shape := ⟨2, ![16384, 16384]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S540672x1 : Shape := ⟨2, ![540672, 1]⟩
abbrev S540672x5 : Shape := ⟨2, ![540672, 5]⟩
abbrev S1x5 : Shape := ⟨2, ![1, 5]⟩
abbrev S16384x1 : Shape := ⟨2, ![16384, 1]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S12288x16384, .f32⟩
  | 1 => ⟨S2x524288, .i32⟩
  | 2 => ⟨S16384x5, .f32⟩
  | 3 => ⟨S5, .f32⟩
  | 4 => ⟨S5x1, .f32⟩
  | 5 => ⟨S1, .f32⟩
  | 6 => ⟨S_, .f32⟩
  | 7 => ⟨S4096x16384, .f32⟩
  | 8 => ⟨S16384x16384, .f32⟩
  | 9 => ⟨S16384x5, .f32⟩
  | 10 => ⟨S16384, .i32⟩
  | 11 => ⟨S1x524288, .i32⟩
  | 12 => ⟨S524288, .i32⟩
  | 13 => ⟨S540672, .i32⟩
  | 14 => ⟨S1x524288, .i32⟩
  | 15 => ⟨S524288, .i32⟩
  | 16 => ⟨S540672, .i32⟩
  | 17 => ⟨S_, .f32⟩
  | 18 => ⟨S540672, .f32⟩
  | 19 => ⟨S_, .f32⟩
  | 20 => ⟨S16384, .f32⟩
  | 21 => ⟨S540672x1, .i32⟩
  | 22 => ⟨S16384, .f32⟩
  | 23 => ⟨S_, .f32⟩
  | 24 => ⟨S16384, .f32⟩
  | 25 => ⟨S16384, .i1⟩
  | 26 => ⟨S_, .f32⟩
  | 27 => ⟨S16384, .f32⟩
  | 28 => ⟨S16384, .f32⟩
  | 29 => ⟨S16384, .f32⟩
  | 30 => ⟨S_, .f32⟩
  | 31 => ⟨S_, .f32⟩
  | 32 => ⟨S16384, .f32⟩
  | 33 => ⟨S16384, .f32⟩
  | 34 => ⟨S_, .i32⟩
  | 35 => ⟨S540672, .i32⟩
  | 36 => ⟨S540672, .i1⟩
  | 37 => ⟨S_, .i32⟩
  | 38 => ⟨S540672, .i32⟩
  | 39 => ⟨S540672, .i32⟩
  | 40 => ⟨S540672, .i32⟩
  | 41 => ⟨S540672x1, .i32⟩
  | 42 => ⟨S540672, .f32⟩
  | 43 => ⟨S_, .i32⟩
  | 44 => ⟨S540672, .i32⟩
  | 45 => ⟨S540672, .i1⟩
  | 46 => ⟨S_, .i32⟩
  | 47 => ⟨S540672, .i32⟩
  | 48 => ⟨S540672, .i32⟩
  | 49 => ⟨S540672, .i32⟩
  | 50 => ⟨S540672x1, .i32⟩
  | 51 => ⟨S540672, .f32⟩
  | 52 => ⟨S540672, .f32⟩
  | 53 => ⟨S_, .i32⟩
  | 54 => ⟨S540672, .i32⟩
  | 55 => ⟨S540672, .i1⟩
  | 56 => ⟨S_, .i32⟩
  | 57 => ⟨S540672, .i32⟩
  | 58 => ⟨S540672, .i32⟩
  | 59 => ⟨S540672, .i32⟩
  | 60 => ⟨S540672x1, .i32⟩
  | 61 => ⟨S540672x5, .f32⟩
  | 62 => ⟨S540672x1, .f32⟩
  | 63 => ⟨S540672x5, .f32⟩
  | 64 => ⟨S540672x5, .f32⟩
  | 65 => ⟨S_, .f32⟩
  | 66 => ⟨S16384x5, .f32⟩
  | 67 => ⟨S540672x1, .i32⟩
  | 68 => ⟨S16384x5, .f32⟩
  | 69 => ⟨S1x5, .f32⟩
  | 70 => ⟨S16384x5, .f32⟩
  | 71 => ⟨S16384x5, .f32⟩
  | 72 => ⟨S_, .f32⟩
  | 73 => ⟨S16384x5, .f32⟩
  | 74 => ⟨S16384x5, .f32⟩
  | 75 => ⟨S16384x1, .f32⟩
  | 76 => ⟨S16384, .i32⟩
  | 77 => ⟨S1x524288, .i32⟩
  | 78 => ⟨S524288, .i32⟩
  | 79 => ⟨S540672, .i32⟩
  | 80 => ⟨S1x524288, .i32⟩
  | 81 => ⟨S524288, .i32⟩
  | 82 => ⟨S540672, .i32⟩
  | 83 => ⟨S_, .f32⟩
  | 84 => ⟨S540672, .f32⟩
  | 85 => ⟨S_, .f32⟩
  | 86 => ⟨S16384, .f32⟩
  | 87 => ⟨S540672x1, .i32⟩
  | 88 => ⟨S16384, .f32⟩
  | 89 => ⟨S_, .f32⟩
  | 90 => ⟨S16384, .f32⟩
  | 91 => ⟨S16384, .i1⟩
  | 92 => ⟨S_, .f32⟩
  | 93 => ⟨S16384, .f32⟩
  | 94 => ⟨S16384, .f32⟩
  | 95 => ⟨S16384, .f32⟩
  | 96 => ⟨S_, .f32⟩
  | 97 => ⟨S_, .f32⟩
  | 98 => ⟨S16384, .f32⟩
  | 99 => ⟨S16384, .f32⟩
  | 100 => ⟨S_, .i32⟩
  | 101 => ⟨S540672, .i32⟩
  | 102 => ⟨S540672, .i1⟩
  | 103 => ⟨S_, .i32⟩
  | 104 => ⟨S540672, .i32⟩
  | 105 => ⟨S540672, .i32⟩
  | 106 => ⟨S540672, .i32⟩
  | 107 => ⟨S540672x1, .i32⟩
  | 108 => ⟨S540672, .f32⟩
  | 109 => ⟨S_, .i32⟩
  | 110 => ⟨S540672, .i32⟩
  | 111 => ⟨S540672, .i1⟩
  | 112 => ⟨S_, .i32⟩
  | 113 => ⟨S540672, .i32⟩
  | 114 => ⟨S540672, .i32⟩
  | 115 => ⟨S540672, .i32⟩
  | 116 => ⟨S540672x1, .i32⟩
  | 117 => ⟨S540672, .f32⟩
  | 118 => ⟨S540672, .f32⟩
  | 119 => ⟨S_, .i32⟩
  | 120 => ⟨S540672, .i32⟩
  | 121 => ⟨S540672, .i1⟩
  | 122 => ⟨S_, .i32⟩
  | 123 => ⟨S540672, .i32⟩
  | 124 => ⟨S540672, .i32⟩
  | 125 => ⟨S540672, .i32⟩
  | 126 => ⟨S540672x1, .i32⟩
  | 127 => ⟨S540672x1, .f32⟩
  | _ => ⟨S12288x16384, .f32⟩

abbrev hbmTy0_1 (i : Nat) : BufTy := match i % 128 with
  | 0 => ⟨S540672x1, .f32⟩
  | 1 => ⟨S540672x1, .f32⟩
  | 2 => ⟨S_, .f32⟩
  | 3 => ⟨S16384x1, .f32⟩
  | 4 => ⟨S540672x1, .i32⟩
  | 5 => ⟨S16384x1, .f32⟩
  | 6 => ⟨S1x1, .f32⟩
  | 7 => ⟨S16384x1, .f32⟩
  | 8 => ⟨S16384x1, .f32⟩
  | 9 => ⟨S_, .f32⟩
  | 10 => ⟨S16384, .f32⟩
  | 11 => ⟨S_, .f32⟩
  | 12 => ⟨S16384, .f32⟩
  | 13 => ⟨S16384, .f32⟩
  | 14 => ⟨S16384x1, .f32⟩
  | 15 => ⟨S16384x1, .f32⟩
  | 16 => ⟨S16384x1, .f32⟩
  | 17 => ⟨S_, .f32⟩
  | 18 => ⟨S16384, .f32⟩
  | 19 => ⟨S16384x1, .f32⟩
  | 20 => ⟨S16384x1, .f32⟩
  | 21 => ⟨S16384x1, .f32⟩
  | _ => ⟨S12288x16384, .f32⟩

abbrev hbmTy (i : Nat) : BufTy := match i / 128 with
  | 0 => hbmTy0_0 i
  | 1 => hbmTy0_1 i
  | _ => ⟨S12288x16384, .f32⟩

abbrev bufTy : (tb : Table) → Fin (tcTables nBuf tb) → BufTy
  | .hbm, ⟨i, _⟩ => hbmTy i
  | _, _ => ⟨S12288x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_call2_v0 : Ref sig .tc := ⟨.hbm, 97, rfl⟩
abbrev main_call2_v1 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_c_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_22 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_call3_cst : Ref sig .tc := ⟨.hbm, 137, rfl⟩
abbrev main_call3_v0 : Ref sig .tc := ⟨.hbm, 138, rfl⟩
abbrev main_call3_cst_0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_cst_1 : Ref sig .tc := ⟨.hbm, 145, rfl⟩
abbrev main_call3_v6 : Ref sig .tc := ⟨.hbm, 146, rfl⟩
abbrev main_call3_v7 : Ref sig .tc := ⟨.hbm, 147, rfl⟩
abbrev main_call3_v8 : Ref sig .tc := ⟨.hbm, 148, rfl⟩
abbrev main_v100 : Ref sig .tc := ⟨.hbm, 149, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  concatenates_S12288x16384_S4096x16384_S16384x16384_d0 : Shape.Concatenates [S12288x16384, S4096x16384] S16384x16384 0
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x5_0_1 : S540672x1.BroadcastsInDim S540672x5 (![0, 1] : Fin 2 → Fin S540672x5.rank)
  bcast_S_S16384x5 : S_.BroadcastsInDim S16384x5 (![] : Fin 0 → Fin S16384x5.rank)
  bcast_S5_S1x5_1 : S5.BroadcastsInDim S1x5 (![1] : Fin 1 → Fin S1x5.rank)
  bcast_S1x5_S16384x5_0_1 : S1x5.BroadcastsInDim S16384x5 (![0, 1] : Fin 2 → Fin S16384x5.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x1_0 : S16384.BroadcastsInDim S16384x1 (![0] : Fin 1 → Fin S16384x1.rank)
  dot_S16384x16384_S16384x5_S16384x5_1_0_0_1_n_n_wf : DotDims.WF S16384x16384 S16384x5 S16384x5 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x5_S540672x1_S540672x5_1_0_n_n_0_1_15_wf : GatherDims.WF S16384x5 S540672x1 S540672x5 [1] [0] [] [0] [] 1 ![1, 5]
  scatter_S16384x5_S540672x1_S540672x5_1_0_0_1_wf : ScatterDims.WF S16384x5 S540672x1 S540672x5 [1] [0] [0] 1
  dot_S16384x5_S5x1_S16384x1_1_0_0_1_n_n_wf : DotDims.WF S16384x5 S5x1 S16384x1 [1] [0] [0] [1] [] []
  gather_S16384x1_S540672x1_S540672x1_1_0_n_n_0_1_11_wf : GatherDims.WF S16384x1 S540672x1 S540672x1 [1] [0] [] [0] [] 1 ![1, 1]
  scatter_S16384x1_S540672x1_S540672x1_1_0_0_1_wf : ScatterDims.WF S16384x1 S540672x1 S540672x1 [1] [0] [0] 1

variable [Facts₀]

def dot_S16384x16384_S16384x5_S16384x5_1_0_0_1_n_n : DotDims S16384x16384 S16384x5 S16384x5 where
  lhsContracting := [1]
  rhsContracting := [0]
  lhsNonContracting := [0]
  rhsNonContracting := [1]
  lhsBatch := []
  rhsBatch := []
  wf := dot_S16384x16384_S16384x5_S16384x5_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x5_S540672x1_S540672x5_1_0_n_n_0_1_15 : GatherDims S16384x5 S540672x1 S540672x5 where
  offsetDims := [1]
  collapsedSliceDims := [0]
  operandBatchingDims := []
  startIndicesBatchingDims := []
  startIndexMap := [0]
  indexVectorDim := 1
  sliceSizes := ![1, 5]
  wf := gather_S16384x5_S540672x1_S540672x5_1_0_n_n_0_1_15_wf
def scatter_S16384x5_S540672x1_S540672x5_1_0_0_1 : ScatterDims S16384x5 S540672x1 S540672x5 where
  updateWindowDims := [1]
  insertedWindowDims := [0]
  scatterDimsToOperandDims := [0]
  indexVectorDim := 1
  wf := scatter_S16384x5_S540672x1_S540672x5_1_0_0_1_wf
def dot_S16384x5_S5x1_S16384x1_1_0_0_1_n_n : DotDims S16384x5 S5x1 S16384x1 where
  lhsContracting := [1]
  rhsContracting := [0]
  lhsNonContracting := [0]
  rhsNonContracting := [1]
  lhsBatch := []
  rhsBatch := []
  wf := dot_S16384x5_S5x1_S16384x1_1_0_0_1_n_n_wf
def gather_S16384x1_S540672x1_S540672x1_1_0_n_n_0_1_11 : GatherDims S16384x1 S540672x1 S540672x1 where
  offsetDims := [1]
  collapsedSliceDims := [0]
  operandBatchingDims := []
  startIndicesBatchingDims := []
  startIndexMap := [0]
  indexVectorDim := 1
  sliceSizes := ![1, 1]
  wf := gather_S16384x1_S540672x1_S540672x1_1_0_n_n_0_1_11_wf
def scatter_S16384x1_S540672x1_S540672x1_1_0_0_1 : ScatterDims S16384x1 S540672x1 S540672x1 where
  updateWindowDims := [1]
  insertedWindowDims := [0]
  scatterDimsToOperandDims := [0]
  indexVectorDim := 1
  wf := scatter_S16384x1_S540672x1_S540672x1_1_0_0_1_wf

class Facts : Prop extends Facts₀ where

variable [Facts]
-- ==== Proof.K.Runs.lean ====
/-
  What the three case runs of the matmul kernel's body and the frame over them share: the contents the region finds
  (no host operation precedes it), each window's block at a grid point, the two branch conditions of the body
  (k = 0: reset the accumulator; k = 7: copy it out) in closed form over the 12 × 8 grid, where the output window is
  idle, and the names of the staging memrefs and of the scratch accumulator.
-/
import proofs.«106697_j46462956208716_1_alg».proof.Proof.Gen.Kernel.Launch
import proofs.«106697_j46462956208716_1_alg».proof.Proof.Gen.Kernel.Skeleton
import proofs.«106697_j46462956208716_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffer contents when the region is entered: the launch memory (the call is @main's first line). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region, stretch by stretch (143 operations). -/
abbrev tailOps : List (List (HloOp τ sig (Elt F))) :=
  [hostOps1, hostOps1_1, hostOps1_2, hostOps1_3, hostOps1_4, hostOps1_5, hostOps1_6, hostOps1_7]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The x window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The W1 window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- `k = 0`: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- `k = 7`: the accumulator is copied to the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x5 .f32 := (Memref.whole cc0_stg2_0 : Memref sig .tc .vmem S1024x5 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x5 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x5 .f32 := win0_2.stage (cfg0.slots t 2)
abbrev hs0_2 (t : Fin cfg0.N) : (ms0_2 t).IsWhole := hstage0_2 ((cfg0.slots t 2).cast nbuf0_2)
/-- The scratch accumulator, a whole scoped buffer of the kernel's own. -/
abbrev scM0_0 : Memref sig .tc .vmem S1024x5 .f32 := Memref.whole cc0_scratch0
abbrev VS0_0 : View sig .tc .vmem S1024x5 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The matmul kernel's body at a grid point with k = 0 (the accumulator is reset, then the block product is added; the output block is not touched): run symbolically on whole staging memrefs, the pieces the accumulator ends with found by the run.
-/
import proofs.«106697_j46462956208716_1_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A (k = 0). The x and W1 staging memrefs hold `x0`, `x1` and are handed back as they were; the output's staging memref
    holds `xi2` and is handed back untouched; the accumulator, at anything, ends with the pieces `LS0` written. -/
noncomputable def kernelRun0_A (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : cond0_0 i) (hc1 : ¬cond0_1 i)
    (x0 : Vec F S1024x2048 .f32) (x1 : Vec F S2048x5 .f32) :
    Σ' (L2 : List (View.Piece (Elt F) S1024x5 .f32)), { LS0 : List (View.Piece (Elt F) S1024x5 .f32) //
      ∀ (xi2 : Vec F S1024x5 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.RunB.lean ====
/-
  The body at a grid point with 0 < k < 7 (the block product is added to the accumulator the point before left; the output block is not touched).
-/
import proofs.«106697_j46462956208716_1_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B (0 < k < 7). As case A, the accumulator starting at what the point before left, `xs0`. -/
noncomputable def kernelRun0_B (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : ¬cond0_1 i)
    (x0 : Vec F S1024x2048 .f32) (x1 : Vec F S2048x5 .f32) (xs0 : Vec F S1024x5 .f32) :
    Σ' (L2 : List (View.Piece (Elt F) S1024x5 .f32)), { LS0 : List (View.Piece (Elt F) S1024x5 .f32) //
      ∀ (xi2 : Vec F S1024x5 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.RunC.lean ====
/-
  The body at a grid point with k = 7 (the last block product is added to the accumulator, and the accumulator is copied to the output block).
-/
import proofs.«106697_j46462956208716_1_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C (k = 7). The accumulator starts at what the point before left, `xs0`; the output's staging memref, at anything, ends
    with the pieces `L2` written. -/
noncomputable def kernelRun0_C (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : cond0_1 i)
    (x0 : Vec F S1024x2048 .f32) (x1 : Vec F S2048x5 .f32) (xs0 : Vec F S1024x5 .f32) :
    Σ' (L2 : List (View.Piece (Elt F) S1024x5 .f32)), { LS0 : List (View.Piece (Elt F) S1024x5 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Tail.lean ====
/-
  The 143 host lines that follow the matmul region, for the frame: @main is the region continued by them; they touch only
  unscoped TensorCore buffers, allocate nothing, and write none of the pipeline's three arrays (x, W1, the region's result)
  and none of the six argument arrays; so the frame claim's post follows from the frame run's.
-/
import proofs.«106697_j46462956208716_1_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall]) (by simp only [List.Forall]) main_chain

/-! ## Stretch by stretch -/

/-- A fact of every line, given for each of the eight stretches, holds of every line of the tail. -/
theorem of_stretches {p : HloOp τ sig (Elt F) → Prop}
    (h : (tailOps : List (List (HloOp τ sig (Elt F)))).Forall fun ops => ops.Forall p) :
    ∀ ops ∈ (tailOps : List (List (HloOp τ sig (Elt F)))), ∀ op ∈ ops, p op := fun ops hops op hop =>
  (List.forall_iff_forall_mem.mp ((List.forall_iff_forall_mem.mp h) ops hops)) op hop

/-- Every line touches TensorCore references only. -/
theorem tail_tc : (tailOps : List (List (HloOp τ sig (Elt F)))).Forall fun ops => ops.Forall fun op => op.bufs ⊆ StableHlo.tcRefs τ sig := by
  simp only [List.Forall]
  exact ⟨hostOps1_sub, hostOps1_1_sub, hostOps1_2_sub, hostOps1_3_sub, hostOps1_4_sub, hostOps1_5_sub, hostOps1_6_sub, hostOps1_7_sub⟩

/-! Each line is one of the builders, none of which allocates. -/

theorem fresh_0 : (hostOps1 : List (HloOp τ sig (Elt F))).Forall fun op => op.fresh = ∅ := by
  simp only [List.Forall]; repeat' apply And.intro
  all_goals rfl

theorem fresh_1 : (hostOps1_1 : List (HloOp τ sig (Elt F))).Forall fun op => op.fresh = ∅ := by
  simp only [List.Forall]; repeat' apply And.intro
  all_goals rfl

theorem fresh_2 : (hostOps1_2 : List (HloOp τ sig (Elt F))).Forall fun op => op.fresh = ∅ := by
  simp only [List.Forall]; repeat' apply And.intro
  all_goals rfl

theorem fresh_3 : (hostOps1_3 : List (HloOp τ sig (Elt F))).Forall fun op => op.fresh = ∅ := by
  simp only [List.Forall]; repeat' apply And.intro
  all_goals rfl

theorem fresh_4 : (hostOps1_4 : List (HloOp τ sig (Elt F))).Forall fun op => op.fresh = ∅ := by
  simp only [List.Forall]; repeat' apply And.intro
  all_goals rfl

theorem fresh_5 : (hostOps1_5 : List (HloOp τ sig (Elt F))).Forall fun op => op.fresh = ∅ := by
  simp only [List.Forall]; repeat' apply And.intro
  all_goals rfl

theorem fresh_6 : (hostOps1_6 : List (HloOp τ sig (Elt F))).Forall fun op => op.fresh = ∅ := by
  simp only [List.Forall]; repeat' apply And.intro
  all_goals rfl

theorem fresh_7 : (hostOps1_7 : List (HloOp τ sig (Elt F))).Forall fun op => op.fresh = ∅ := by
  simp only [List.Forall]; repeat' apply And.intro
  all_goals rfl

theorem tail_fresh : (tailOps : List (List (HloOp τ sig (Elt F)))).Forall fun ops => ops.Forall fun op => op.fresh = ∅ := by
  simp only [List.Forall]
  exact ⟨fresh_0, fresh_1, fresh_2, fresh_3, fresh_4, fresh_5, fresh_6, fresh_7⟩

/-! ## The buffers the lines must leave alone -/

/-- The six argument buffers and the region's result buffer: among them are the pipeline's three arrays. -/
abbrev kept : List (Ref sig .tc) := [main_arg0, main_arg1, main_arg2, main_arg3, main_arg4, main_arg5, main_v0]

/-- Each array of the pipeline is one of them. -/
theorem arr_kept : ∀ w, Pipeline.arrRef spec0 w ∈ kept := by decide

/-- A kept buffer and a buffer that is not kept are different device buffers. -/
theorem ne_of_kept {r y : Ref sig .tc} (hr : r ∈ kept) (hy : y ∉ kept) :
    Proc.devRef (τ := τ) .tc r ≠ Proc.devRef .tc y :=
  StableHlo.devRef_ne_of_ne fun e => hy (e ▸ hr)

/-- No line of stretch 0 (the first 24 lines of @main) writes a kept buffer: each writes its own result buffer only. -/
theorem keeps_0 {r : Ref sig .tc} (hr : r ∈ kept) :
    (hostOps1 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 1 (the 3 lines of the first select) writes a kept buffer: each writes its own result buffer only. -/
theorem keeps_1 {r : Ref sig .tc} (hr : r ∈ kept) :
    (hostOps1_1 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 2 (the next 38 lines of @main) writes a kept buffer: each writes its own result buffer only. -/
theorem keeps_2 {r : Ref sig .tc} (hr : r ∈ kept) :
    (hostOps1_2 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 3 (the 3 lines of the rectifier) writes a kept buffer: each writes its own result buffer only. -/
theorem keeps_3 {r : Ref sig .tc} (hr : r ∈ kept) :
    (hostOps1_3 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 4 (the next 22 lines of @main) writes a kept buffer: each writes its own result buffer only. -/
theorem keeps_4 {r : Ref sig .tc} (hr : r ∈ kept) :
    (hostOps1_4 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 5 (the 3 lines of the second select) writes a kept buffer: each writes its own result buffer only. -/
theorem keeps_5 {r : Ref sig .tc} (hr : r ∈ kept) :
    (hostOps1_5 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 6 (the last 37 lines of @main) writes a kept buffer: each writes its own result buffer only. -/
theorem keeps_6 {r : Ref sig .tc} (hr : r ∈ kept) :
    (hostOps1_6 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 7 (the 13 lines of the log-softmax) writes a kept buffer: each writes its own result buffer only. -/
theorem keeps_7 {r : Ref sig .tc} (hr : r ∈ kept) :
    (hostOps1_7 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of the tail writes a kept buffer. -/
theorem tail_keeps {r : Ref sig .tc} (hr : r ∈ kept) :
    ∀ ops ∈ (tailOps : List (List (HloOp τ sig (Elt F)))), ∀ op ∈ ops, Proc.devRef .tc r ∉ op.writes :=
  of_stretches (by
    simp only [List.Forall]
    exact ⟨keeps_0 hr, keeps_1 hr, keeps_2 hr, keeps_3 hr, keeps_4 hr, keeps_5 hr, keeps_6 hr, keeps_7 hr⟩)

/-- The lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (of_stretches tail_tc ops hops op hop)

/-- They allocate nothing. -/
theorem sfx_fresh : ∀ ops ∈ (tailOps : List (List (HloOp τ sig (Elt F)))), ∀ op ∈ ops, op.fresh = ∅ :=
  of_stretches tail_fresh

/-- They write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps (arr_kept w) ops hops op hop

/-! ## The argument buffers at the end -/

/-- A kept buffer holds after the lines what the region left in it. -/
theorem after_tail_kept {r : Ref sig .tc} (hr : r ∈ kept) (W : Valuation τ sig (Elt F)) :
    StableHlo.after (tailOps : List (List (HloOp τ sig (Elt F)))).flatten W (Proc.devRef .tc r) = W (Proc.devRef .tc r) :=
  StableHlo.after_of_forall_not_mem _ W fun op hop => by
    obtain ⟨ops, hops, hin⟩ := List.mem_flatten.mp hop
    exact tail_keeps hr ops hops op hin

/-- An argument buffer that is no array of the pipeline ends as launched: the region leaves it at its entry contents,
    which are the launch contents (no line precedes the region), and the lines do not write it. -/
theorem after_bypass (dats : (p : Fin 1) → (c : Dev nD) → Dat τ (Elt F) Unit ℕ (UR sig nD τ) ℕ (cfgs p) c) (c : Dev nD)
    {b : Ref sig .tc} (hb : b ∈ kept) (hne : ∀ w, Pipeline.arrRef spec0 w ≠ b) :
    Pipeline.afterTail₀ cfgs dats 0 (V0 m) tailOps c b = m ((c.tc : Thread nD τ).loc b) := by
  unfold Pipeline.afterTail₀
  rw [after_tail_kept hb, Pipeline.withArrays_of_ne _ c (V0 m c) _ b hne]
  rfl

/-- The frame run's post read at the six argument buffers: x and W1 are the input windows' arrays, which the region
    leaves as it found them; the other four bypass the region; no line after it writes any of the six. -/
theorem post_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := fun c =>
  have staged : ∀ w : Fin 3, (cfg0.win w).isOut = false →
      r.2.mem (((cfgs 0).spec w).arr.view.loc (c.tc : Thread nD τ)) = V m c (Pipeline.arrRef spec0 w) := fun w hw =>
    ((h c).1 w).trans (((dats 0 c).arrAt_in w hw _).trans (hA c w))
  have bypass : ∀ b : Ref sig .tc, b ∈ kept → b.isScoped = false → (∀ w, Pipeline.arrRef spec0 w ≠ b) →
      r.2.mem ((c.tc : Thread nD τ).loc b) = m ((c.tc : Thread nD τ).loc b) := fun b hb hs hne =>
    ((h c).2 b (Pipeline.mem_restRefs_of b hs hne)).trans (after_bypass m dats c hb hne)
  ⟨staged 0 rfl, bypass main_arg1 (by decide) rfl (by decide), staged 1 rfl, bypass main_arg3 (by decide) rfl (by decide),
    bypass main_arg4 (by decide) rfl (by decide), bypass main_arg5 (by decide) rfl (by decide)⟩

/-- THE FRAME from a frame run: the six argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr => post_args m dats hA r hr) h

end Cert.Kernel.Fr

end
-- ==== Proof.K.Frame.lean ====
/-
  The frame of the program: the matmul region (12 × 8 grid; the accumulator reset at k = 0, added to at every k, copied to the
  output block at k = 7) followed by the 143 host lines. What the accumulator and the output's staging buffer hold after each
  grid point is stated by recursion on the point (`outsAt0`); the region's invariant carries the accumulator at that value
  from one point to the next; the body obligation is the three case runs; the launch is the library's frame run for a region
  that is followed by host lines. The frame claim (all six argument arrays end as launched) is read off its post.
-/
import proofs.«106697_j46462956208716_1_alg».proof.Proof.K.RunC
import proofs.«106697_j46462956208716_1_alg».proof.Proof.K.Tail

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the output's staging buffer (the window is idle there and not written back): a placeholder nothing consults. -/
def out0_A_2 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : cond0_0 i) (hc1 : ¬cond0_1 i)
    (x0 : Vec F S1024x2048 .f32) (x1 : Vec F S2048x5 .f32) : Vec F S1024x5 .f32 :=
  VO0_2.read (Elt F) (VO0_2.writes (Elt F) VO0_2.junk (kernelRun0_A c i arg2 harg2 arg3 harg3 arg4 harg4 arg5 harg5 hc0 hc1 x0 x1).1)

/-- Case A's stores into the accumulator cover it. -/
theorem scover0_A_0 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : cond0_0 i) (hc1 : ¬cond0_1 i)
    (x0 : Vec F S1024x2048 .f32) (x1 : Vec F S2048x5 .f32) (y : S1024x5.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x5.size (by sl_kernel_rfl) y

/-- What case A leaves in the accumulator: its pieces read back. -/
def sout0_A_0 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : cond0_0 i) (hc1 : ¬cond0_1 i)
    (x0 : Vec F S1024x2048 .f32) (x1 : Vec F S2048x5 .f32) : Vec F S1024x5 .f32 :=
  VS0_0.read (Elt F) (VS0_0.writes (Elt F) VS0_0.junk (kernelRun0_A c i arg2 harg2 arg3 harg3 arg4 harg4 arg5 harg5 hc0 hc1 x0 x1).2.1)

/-- Case B stores nothing into the output's staging buffer (the window is idle there and not written back): a placeholder nothing consults. -/
def out0_B_2 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : ¬cond0_1 i)
    (x0 : Vec F S1024x2048 .f32) (x1 : Vec F S2048x5 .f32) (xs0 : Vec F S1024x5 .f32) : Vec F S1024x5 .f32 :=
  VO0_2.read (Elt F) (VO0_2.writes (Elt F) VO0_2.junk (kernelRun0_B c i arg2 harg2 arg3 harg3 arg4 harg4 arg5 harg5 hc0 hc1 x0 x1 xs0).1)

/-- Case B's stores into the accumulator cover it. -/
theorem scover0_B_0 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : ¬cond0_1 i)
    (x0 : Vec F S1024x2048 .f32) (x1 : Vec F S2048x5 .f32) (xs0 : Vec F S1024x5 .f32) (y : S1024x5.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x5.size (by sl_kernel_rfl) y

/-- What case B leaves in the accumulator: its pieces read back. -/
def sout0_B_0 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : ¬cond0_1 i)
    (x0 : Vec F S1024x2048 .f32) (x1 : Vec F S2048x5 .f32) (xs0 : Vec F S1024x5 .f32) : Vec F S1024x5 .f32 :=
  VS0_0.read (Elt F) (VS0_0.writes (Elt F) VS0_0.junk (kernelRun0_B c i arg2 harg2 arg3 harg3 arg4 harg4 arg5 harg5 hc0 hc1 x0 x1 xs0).2.1)

/-- Case C's one store into the output block covers it. -/
theorem cover0_C_2 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : cond0_1 i)
    (x0 : Vec F S1024x2048 .f32) (x1 : Vec F S2048x5 .f32) (xs0 : Vec F S1024x5 .f32) (y : S1024x5.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x5.size (by sl_kernel_rfl) y

/-- What case C leaves in the output's staging buffer: its pieces read back. -/
def out0_C_2 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : cond0_1 i)
    (x0 : Vec F S1024x2048 .f32) (x1 : Vec F S2048x5 .f32) (xs0 : Vec F S1024x5 .f32) : Vec F S1024x5 .f32 :=
  VO0_2.read (Elt F) (VO0_2.writes (Elt F) VO0_2.junk (kernelRun0_C c i arg2 harg2 arg3 harg3 arg4 harg4 arg5 harg5 hc0 hc1 x0 x1 xs0).1)

/-- Case C's stores into the accumulator cover it. -/
theorem scover0_C_0 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : cond0_1 i)
    (x0 : Vec F S1024x2048 .f32) (x1 : Vec F S2048x5 .f32) (xs0 : Vec F S1024x5 .f32) (y : S1024x5.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x5.size (by sl_kernel_rfl) y

/-- What case C leaves in the accumulator: its pieces read back. -/
def sout0_C_0 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : cond0_1 i)
    (x0 : Vec F S1024x2048 .f32) (x1 : Vec F S2048x5 .f32) (xs0 : Vec F S1024x5 .f32) : Vec F S1024x5 .f32 :=
  VS0_0.read (Elt F) (VS0_0.writes (Elt F) VS0_0.junk (kernelRun0_C c i arg2 harg2 arg3 harg3 arg4 harg4 arg5 harg5 hc0 hc1 x0 x1 xs0).2.1)

/-! ## What the output's staging buffer and the accumulator hold after each point -/

/-- After the body at position `n`: (the output's staging buffer, the accumulator) — the case the closed forms select at `n`,
    run at the point's memrefs and input blocks, the accumulator starting from what position `n - 1` left. -/
def outsAt0 (c : Dev nD) : (n : ℕ) → n < cfg0.N → Vec F S1024x5 .f32 × Vec F S1024x5 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what the
    point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 96 := N_0; omega)

/-! ## The run and the frame -/

set_option backward.isDefEq.respectTransparency.types false in
/-- Every weakly fair execution of @main terminates, and every final state has each array of the pipeline at what the proof
    data say and every other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: every weakly fair execution terminates, nothing faults, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Fr

end
-- ==== Proof.KI.Runs.lean ====
/-
  What the three case runs of the matmul kernel's body and the frame over them share: the contents the region finds
  (no host operation precedes it), each window's block at a grid point, the two branch conditions of the body
  (k = 0: reset the accumulator; k = 7: copy it out) in closed form over the 12 × 8 grid, where the output window is
  idle, and the names of the staging memrefs and of the scratch accumulator.
-/
import proofs.«106697_j46462956208716_1_alg».proof.Proof.Gen.KernelIdeal.Launch
import proofs.«106697_j46462956208716_1_alg».proof.Proof.Gen.KernelIdeal.Skeleton
import proofs.«106697_j46462956208716_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffer contents when the region is entered: the launch memory (the call is @main's first line). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region, stretch by stretch (143 operations). -/
abbrev tailOps : List (List (HloOp τ sig (Elt F))) :=
  [hostOps1, hostOps1_1, hostOps1_2, hostOps1_3, hostOps1_4, hostOps1_5, hostOps1_6, hostOps1_7]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The x window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The W1 window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- `k = 0`: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- `k = 7`: the accumulator is copied to the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x5 .f32 := (Memref.whole cc0_stg2_0 : Memref sig .tc .vmem S1024x5 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x5 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x5 .f32 := win0_2.stage (cfg0.slots t 2)
abbrev hs0_2 (t : Fin cfg0.N) : (ms0_2 t).IsWhole := hstage0_2 ((cfg0.slots t 2).cast nbuf0_2)
/-- The scratch accumulator, a whole scoped buffer of the kernel's own. -/
abbrev scM0_0 : Memref sig .tc .vmem S1024x5 .f32 := Memref.whole cc0_scratch0
abbrev VS0_0 : View sig .tc .vmem S1024x5 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The matmul kernel's body at a grid point with k = 0 (the accumulator is reset, then the block product is added; the output block is not touched): run symbolically on whole staging memrefs, the pieces the accumulator ends with found by the run.
-/
import proofs.«106697_j46462956208716_1_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A (k = 0). The x and W1 staging memrefs hold `x0`, `x1` and are handed back as they were; the output's staging memref
    holds `xi2` and is handed back untouched; the accumulator, at anything, ends with the pieces `LS0` written. -/
noncomputable def kernelRun0_A (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : cond0_0 i) (hc1 : ¬cond0_1 i)
    (x0 : Vec F S1024x2048 .f32) (x1 : Vec F S2048x5 .f32) :
    Σ' (L2 : List (View.Piece (Elt F) S1024x5 .f32)), { LS0 : List (View.Piece (Elt F) S1024x5 .f32) //
      ∀ (xi2 : Vec F S1024x5 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.RunB.lean ====
/-
  The body at a grid point with 0 < k < 7 (the block product is added to the accumulator the point before left; the output block is not touched).
-/
import proofs.«106697_j46462956208716_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B (0 < k < 7). As case A, the accumulator starting at what the point before left, `xs0`. -/
noncomputable def kernelRun0_B (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : ¬cond0_1 i)
    (x0 : Vec F S1024x2048 .f32) (x1 : Vec F S2048x5 .f32) (xs0 : Vec F S1024x5 .f32) :
    Σ' (L2 : List (View.Piece (Elt F) S1024x5 .f32)), { LS0 : List (View.Piece (Elt F) S1024x5 .f32) //
      ∀ (xi2 : Vec F S1024x5 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.RunC.lean ====
/-
  The body at a grid point with k = 7 (the last block product is added to the accumulator, and the accumulator is copied to the output block).
-/
import proofs.«106697_j46462956208716_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C (k = 7). The accumulator starts at what the point before left, `xs0`; the output's staging memref, at anything, ends
    with the pieces `L2` written. -/
noncomputable def kernelRun0_C (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : cond0_1 i)
    (x0 : Vec F S1024x2048 .f32) (x1 : Vec F S2048x5 .f32) (xs0 : Vec F S1024x5 .f32) :
    Σ' (L2 : List (View.Piece (Elt F) S1024x5 .f32)), { LS0 : List (View.Piece (Elt F) S1024x5 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Tail.lean ====
/-
  The 143 host lines that follow the matmul region, for the frame: @main is the region continued by them; they touch only
  unscoped TensorCore buffers, allocate nothing, and write none of the pipeline's three arrays (x, W1, the region's result)
  and none of the six argument arrays; so the frame claim's post follows from the frame run's.
-/
import proofs.«106697_j46462956208716_1_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall]) (by simp only [List.Forall]) main_chain

/-! ## Stretch by stretch -/

/-- A fact of every line, given for each of the eight stretches, holds of every line of the tail. -/
theorem of_stretches {p : HloOp τ sig (Elt F) → Prop}
    (h : (tailOps : List (List (HloOp τ sig (Elt F)))).Forall fun ops => ops.Forall p) :
    ∀ ops ∈ (tailOps : List (List (HloOp τ sig (Elt F)))), ∀ op ∈ ops, p op := fun ops hops op hop =>
  (List.forall_iff_forall_mem.mp ((List.forall_iff_forall_mem.mp h) ops hops)) op hop

/-- Every line touches TensorCore references only. -/
theorem tail_tc : (tailOps : List (List (HloOp τ sig (Elt F)))).Forall fun ops => ops.Forall fun op => op.bufs ⊆ StableHlo.tcRefs τ sig := by
  simp only [List.Forall]
  exact ⟨hostOps1_sub, hostOps1_1_sub, hostOps1_2_sub, hostOps1_3_sub, hostOps1_4_sub, hostOps1_5_sub, hostOps1_6_sub, hostOps1_7_sub⟩

/-! Each line is one of the builders, none of which allocates. -/

theorem fresh_0 : (hostOps1 : List (HloOp τ sig (Elt F))).Forall fun op => op.fresh = ∅ := by
  simp only [List.Forall]; repeat' apply And.intro
  all_goals rfl

theorem fresh_1 : (hostOps1_1 : List (HloOp τ sig (Elt F))).Forall fun op => op.fresh = ∅ := by
  simp only [List.Forall]; repeat' apply And.intro
  all_goals rfl

theorem fresh_2 : (hostOps1_2 : List (HloOp τ sig (Elt F))).Forall fun op => op.fresh = ∅ := by
  simp only [List.Forall]; repeat' apply And.intro
  all_goals rfl

theorem fresh_3 : (hostOps1_3 : List (HloOp τ sig (Elt F))).Forall fun op => op.fresh = ∅ := by
  simp only [List.Forall]; repeat' apply And.intro
  all_goals rfl

theorem fresh_4 : (hostOps1_4 : List (HloOp τ sig (Elt F))).Forall fun op => op.fresh = ∅ := by
  simp only [List.Forall]; repeat' apply And.intro
  all_goals rfl

theorem fresh_5 : (hostOps1_5 : List (HloOp τ sig (Elt F))).Forall fun op => op.fresh = ∅ := by
  simp only [List.Forall]; repeat' apply And.intro
  all_goals rfl

theorem fresh_6 : (hostOps1_6 : List (HloOp τ sig (Elt F))).Forall fun op => op.fresh = ∅ := by
  simp only [List.Forall]; repeat' apply And.intro
  all_goals rfl

theorem fresh_7 : (hostOps1_7 : List (HloOp τ sig (Elt F))).Forall fun op => op.fresh = ∅ := by
  simp only [List.Forall]; repeat' apply And.intro
  all_goals rfl

theorem tail_fresh : (tailOps : List (List (HloOp τ sig (Elt F)))).Forall fun ops => ops.Forall fun op => op.fresh = ∅ := by
  simp only [List.Forall]
  exact ⟨fresh_0, fresh_1, fresh_2, fresh_3, fresh_4, fresh_5, fresh_6, fresh_7⟩

/-! ## The buffers the lines must leave alone -/

/-- The six argument buffers and the region's result buffer: among them are the pipeline's three arrays. -/
abbrev kept : List (Ref sig .tc) := [main_arg0, main_arg1, main_arg2, main_arg3, main_arg4, main_arg5, main_v0]

/-- Each array of the pipeline is one of them. -/
theorem arr_kept : ∀ w, Pipeline.arrRef spec0 w ∈ kept := by decide

/-- A kept buffer and a buffer that is not kept are different device buffers. -/
theorem ne_of_kept {r y : Ref sig .tc} (hr : r ∈ kept) (hy : y ∉ kept) :
    Proc.devRef (τ := τ) .tc r ≠ Proc.devRef .tc y :=
  StableHlo.devRef_ne_of_ne fun e => hy (e ▸ hr)

/-- No line of stretch 0 (the first 24 lines of @main) writes a kept buffer: each writes its own result buffer only. -/
theorem keeps_0 {r : Ref sig .tc} (hr : r ∈ kept) :
    (hostOps1 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 1 (the 3 lines of the first select) writes a kept buffer: each writes its own result buffer only. -/
theorem keeps_1 {r : Ref sig .tc} (hr : r ∈ kept) :
    (hostOps1_1 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 2 (the next 38 lines of @main) writes a kept buffer: each writes its own result buffer only. -/
theorem keeps_2 {r : Ref sig .tc} (hr : r ∈ kept) :
    (hostOps1_2 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 3 (the 3 lines of the rectifier) writes a kept buffer: each writes its own result buffer only. -/
theorem keeps_3 {r : Ref sig .tc} (hr : r ∈ kept) :
    (hostOps1_3 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 4 (the next 22 lines of @main) writes a kept buffer: each writes its own result buffer only. -/
theorem keeps_4 {r : Ref sig .tc} (hr : r ∈ kept) :
    (hostOps1_4 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 5 (the 3 lines of the second select) writes a kept buffer: each writes its own result buffer only. -/
theorem keeps_5 {r : Ref sig .tc} (hr : r ∈ kept) :
    (hostOps1_5 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 6 (the last 37 lines of @main) writes a kept buffer: each writes its own result buffer only. -/
theorem keeps_6 {r : Ref sig .tc} (hr : r ∈ kept) :
    (hostOps1_6 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of stretch 7 (the 13 lines of the log-softmax) writes a kept buffer: each writes its own result buffer only. -/
theorem keeps_7 {r : Ref sig .tc} (hr : r ∈ kept) :
    (hostOps1_7 : List (HloOp τ sig (Elt F))).Forall fun op => Proc.devRef .tc r ∉ op.writes := by
  simp only [List.Forall, StableHlo.nullary_writes, StableHlo.unary_writes, StableHlo.binary_writes, StableHlo.ternary_writes,
    StableHlo.reshape_writes, Finset.mem_singleton]
  repeat' apply And.intro
  all_goals exact ne_of_kept hr (by decide)

/-- No line of the tail writes a kept buffer. -/
theorem tail_keeps {r : Ref sig .tc} (hr : r ∈ kept) :
    ∀ ops ∈ (tailOps : List (List (HloOp τ sig (Elt F)))), ∀ op ∈ ops, Proc.devRef .tc r ∉ op.writes :=
  of_stretches (by
    simp only [List.Forall]
    exact ⟨keeps_0 hr, keeps_1 hr, keeps_2 hr, keeps_3 hr, keeps_4 hr, keeps_5 hr, keeps_6 hr, keeps_7 hr⟩)

/-- The lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (of_stretches tail_tc ops hops op hop)

/-- They allocate nothing. -/
theorem sfx_fresh : ∀ ops ∈ (tailOps : List (List (HloOp τ sig (Elt F)))), ∀ op ∈ ops, op.fresh = ∅ :=
  of_stretches tail_fresh

/-- They write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps (arr_kept w) ops hops op hop

/-! ## The argument buffers at the end -/

/-- A kept buffer holds after the lines what the region left in it. -/
theorem after_tail_kept {r : Ref sig .tc} (hr : r ∈ kept) (W : Valuation τ sig (Elt F)) :
    StableHlo.after (tailOps : List (List (HloOp τ sig (Elt F)))).flatten W (Proc.devRef .tc r) = W (Proc.devRef .tc r) :=
  StableHlo.after_of_forall_not_mem _ W fun op hop => by
    obtain ⟨ops, hops, hin⟩ := List.mem_flatten.mp hop
    exact tail_keeps hr ops hops op hin

/-- An argument buffer that is no array of the pipeline ends as launched: the region leaves it at its entry contents,
    which are the launch contents (no line precedes the region), and the lines do not write it. -/
theorem after_bypass (dats : (p : Fin 1) → (c : Dev nD) → Dat τ (Elt F) Unit ℕ (UR sig nD τ) ℕ (cfgs p) c) (c : Dev nD)
    {b : Ref sig .tc} (hb : b ∈ kept) (hne : ∀ w, Pipeline.arrRef spec0 w ≠ b) :
    Pipeline.afterTail₀ cfgs dats 0 (V0 m) tailOps c b = m ((c.tc : Thread nD τ).loc b) := by
  unfold Pipeline.afterTail₀
  rw [after_tail_kept hb, Pipeline.withArrays_of_ne _ c (V0 m c) _ b hne]
  rfl

/-- The frame run's post read at the six argument buffers: x and W1 are the input windows' arrays, which the region
    leaves as it found them; the other four bypass the region; no line after it writes any of the six. -/
theorem post_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := fun c =>
  have staged : ∀ w : Fin 3, (cfg0.win w).isOut = false →
      r.2.mem (((cfgs 0).spec w).arr.view.loc (c.tc : Thread nD τ)) = V m c (Pipeline.arrRef spec0 w) := fun w hw =>
    ((h c).1 w).trans (((dats 0 c).arrAt_in w hw _).trans (hA c w))
  have bypass : ∀ b : Ref sig .tc, b ∈ kept → b.isScoped = false → (∀ w, Pipeline.arrRef spec0 w ≠ b) →
      r.2.mem ((c.tc : Thread nD τ).loc b) = m ((c.tc : Thread nD τ).loc b) := fun b hb hs hne =>
    ((h c).2 b (Pipeline.mem_restRefs_of b hs hne)).trans (after_bypass m dats c hb hne)
  ⟨staged 0 rfl, bypass main_arg1 (by decide) rfl (by decide), staged 1 rfl, bypass main_arg3 (by decide) rfl (by decide),
    bypass main_arg4 (by decide) rfl (by decide), bypass main_arg5 (by decide) rfl (by decide)⟩

/-- THE FRAME from a frame run: the six argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr => post_args m dats hA r hr) h

end Cert.KernelIdeal.Fr

end
-- ==== Proof.KI.Frame.lean ====
/-
  The frame of the program: the matmul region (12 × 8 grid; the accumulator reset at k = 0, added to at every k, copied to the
  output block at k = 7) followed by the 143 host lines. What the accumulator and the output's staging buffer hold after each
  grid point is stated by recursion on the point (`outsAt0`); the region's invariant carries the accumulator at that value
  from one point to the next; the body obligation is the three case runs; the launch is the library's frame run for a region
  that is followed by host lines. The frame claim (all six argument arrays end as launched) is read off its post.
-/
import proofs.«106697_j46462956208716_1_alg».proof.Proof.KI.RunC
import proofs.«106697_j46462956208716_1_alg».proof.Proof.KI.Tail

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the output's staging buffer (the window is idle there and not written back): a placeholder nothing consults. -/
def out0_A_2 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : cond0_0 i) (hc1 : ¬cond0_1 i)
    (x0 : Vec F S1024x2048 .f32) (x1 : Vec F S2048x5 .f32) : Vec F S1024x5 .f32 :=
  VO0_2.read (Elt F) (VO0_2.writes (Elt F) VO0_2.junk (kernelRun0_A c i arg2 harg2 arg3 harg3 arg4 harg4 arg5 harg5 hc0 hc1 x0 x1).1)

/-- Case A's stores into the accumulator cover it. -/
theorem scover0_A_0 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : cond0_0 i) (hc1 : ¬cond0_1 i)
    (x0 : Vec F S1024x2048 .f32) (x1 : Vec F S2048x5 .f32) (y : S1024x5.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x5.size (by sl_kernel_rfl) y

/-- What case A leaves in the accumulator: its pieces read back. -/
def sout0_A_0 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : cond0_0 i) (hc1 : ¬cond0_1 i)
    (x0 : Vec F S1024x2048 .f32) (x1 : Vec F S2048x5 .f32) : Vec F S1024x5 .f32 :=
  VS0_0.read (Elt F) (VS0_0.writes (Elt F) VS0_0.junk (kernelRun0_A c i arg2 harg2 arg3 harg3 arg4 harg4 arg5 harg5 hc0 hc1 x0 x1).2.1)

/-- Case B stores nothing into the output's staging buffer (the window is idle there and not written back): a placeholder nothing consults. -/
def out0_B_2 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : ¬cond0_1 i)
    (x0 : Vec F S1024x2048 .f32) (x1 : Vec F S2048x5 .f32) (xs0 : Vec F S1024x5 .f32) : Vec F S1024x5 .f32 :=
  VO0_2.read (Elt F) (VO0_2.writes (Elt F) VO0_2.junk (kernelRun0_B c i arg2 harg2 arg3 harg3 arg4 harg4 arg5 harg5 hc0 hc1 x0 x1 xs0).1)

/-- Case B's stores into the accumulator cover it. -/
theorem scover0_B_0 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : ¬cond0_1 i)
    (x0 : Vec F S1024x2048 .f32) (x1 : Vec F S2048x5 .f32) (xs0 : Vec F S1024x5 .f32) (y : S1024x5.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x5.size (by sl_kernel_rfl) y

/-- What case B leaves in the accumulator: its pieces read back. -/
def sout0_B_0 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : ¬cond0_1 i)
    (x0 : Vec F S1024x2048 .f32) (x1 : Vec F S2048x5 .f32) (xs0 : Vec F S1024x5 .f32) : Vec F S1024x5 .f32 :=
  VS0_0.read (Elt F) (VS0_0.writes (Elt F) VS0_0.junk (kernelRun0_B c i arg2 harg2 arg3 harg3 arg4 harg4 arg5 harg5 hc0 hc1 x0 x1 xs0).2.1)

/-- Case C's one store into the output block covers it. -/
theorem cover0_C_2 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : cond0_1 i)
    (x0 : Vec F S1024x2048 .f32) (x1 : Vec F S2048x5 .f32) (xs0 : Vec F S1024x5 .f32) (y : S1024x5.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x5.size (by sl_kernel_rfl) y

/-- What case C leaves in the output's staging buffer: its pieces read back. -/
def out0_C_2 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : cond0_1 i)
    (x0 : Vec F S1024x2048 .f32) (x1 : Vec F S2048x5 .f32) (xs0 : Vec F S1024x5 .f32) : Vec F S1024x5 .f32 :=
  VO0_2.read (Elt F) (VO0_2.writes (Elt F) VO0_2.junk (kernelRun0_C c i arg2 harg2 arg3 harg3 arg4 harg4 arg5 harg5 hc0 hc1 x0 x1 xs0).1)

/-- Case C's stores into the accumulator cover it. -/
theorem scover0_C_0 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : cond0_1 i)
    (x0 : Vec F S1024x2048 .f32) (x1 : Vec F S2048x5 .f32) (xs0 : Vec F S1024x5 .f32) (y : S1024x5.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x5.size (by sl_kernel_rfl) y

/-- What case C leaves in the accumulator: its pieces read back. -/
def sout0_C_0 (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : cond0_1 i)
    (x0 : Vec F S1024x2048 .f32) (x1 : Vec F S2048x5 .f32) (xs0 : Vec F S1024x5 .f32) : Vec F S1024x5 .f32 :=
  VS0_0.read (Elt F) (VS0_0.writes (Elt F) VS0_0.junk (kernelRun0_C c i arg2 harg2 arg3 harg3 arg4 harg4 arg5 harg5 hc0 hc1 x0 x1 xs0).2.1)

/-! ## What the output's staging buffer and the accumulator hold after each point -/

/-- After the body at position `n`: (the output's staging buffer, the accumulator) — the case the closed forms select at `n`,
    run at the point's memrefs and input blocks, the accumulator starting from what position `n - 1` left. -/
def outsAt0 (c : Dev nD) : (n : ℕ) → n < cfg0.N → Vec F S1024x5 .f32 × Vec F S1024x5 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what the
    point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 96 := N_0; omega)

/-! ## The run and the frame -/

set_option backward.isDefEq.respectTransparency.types false in
/-- Every weakly fair execution of @main terminates, and every final state has each array of the pipeline at what the proof
    data say and every other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: every weakly fair execution terminates, nothing faults, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Fr

end
-- ==== Proof.KI.Payload.lean ====
/-
  The arithmetic of one grid step of the blocked product, entry by entry over the extended reals. The reset stores the
  zero block; the update adds to the accumulator the product of the step's 1024 × 2048 block of x and 2048 × 5 block of
  W1: at row r and column j, acc(r, j) + Σ_kk xblk(r, kk) · wblk(kk, j), kk over the block's 2048 columns. The narrowing
  of both blocks before the product changes nothing over the extended reals, and the product's own accumulator is zero.
-/
import proofs.«106697_j46462956208716_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-- The block product's dimension numbers: rows of the left block against columns of the right, one contracted axis. -/
abbrev blkDot : DotDims S1024x2048 S2048x5 S1024x5 := dot_S1024x2048_S2048x5_S1024x5_1_0_0_1_n_n

/-- Left operand index, row axis: the output's row. -/
theorem lhs_blk_0 (i : S1024x5.Idx) (q : dot_S1024x2048_S2048x5_S1024x5_1_0_0_1_n_n.contr.Idx) :
    (dot_S1024x2048_S2048x5_S1024x5_1_0_0_1_n_n.lhsIdx i q 0).val = (i 0).val := by
  unfold DotDims.lhsIdx
  rw [dif_neg (show ¬(0 : Fin S1024x2048.rank) ∈ dot_S1024x2048_S2048x5_S1024x5_1_0_0_1_n_n.lhsBatch by decide), dif_pos (show (0 : Fin S1024x2048.rank) ∈ dot_S1024x2048_S2048x5_S1024x5_1_0_0_1_n_n.lhsNonContracting by decide)]
  rfl
/-- Left operand index, column axis: the contracted coordinate. -/
theorem lhs_blk_1 (i : S1024x5.Idx) (q : dot_S1024x2048_S2048x5_S1024x5_1_0_0_1_n_n.contr.Idx) :
    (dot_S1024x2048_S2048x5_S1024x5_1_0_0_1_n_n.lhsIdx i q 1).val = (q ⟨0, by decide⟩).val :=
  dot_S1024x2048_S2048x5_S1024x5_1_0_0_1_n_n.lhsIdx_val_of_single rfl i q
/-- Right operand index, row axis: the contracted coordinate. -/
theorem rhs_blk_0 (i : S1024x5.Idx) (q : dot_S1024x2048_S2048x5_S1024x5_1_0_0_1_n_n.contr.Idx) :
    (dot_S1024x2048_S2048x5_S1024x5_1_0_0_1_n_n.rhsIdx i q 0).val = (q ⟨0, by decide⟩).val :=
  dot_S1024x2048_S2048x5_S1024x5_1_0_0_1_n_n.rhsIdx_val_of_single rfl i q
/-- Right operand index, column axis: the output's column. -/
theorem rhs_blk_1 (i : S1024x5.Idx) (q : dot_S1024x2048_S2048x5_S1024x5_1_0_0_1_n_n.contr.Idx) :
    (dot_S1024x2048_S2048x5_S1024x5_1_0_0_1_n_n.rhsIdx i q 1).val = (i 1).val := by
  unfold DotDims.rhsIdx
  rw [dif_neg (show ¬(1 : Fin S2048x5.rank) ∈ dot_S1024x2048_S2048x5_S1024x5_1_0_0_1_n_n.rhsBatch by decide), dif_pos (show (1 : Fin S2048x5.rank) ∈ dot_S1024x2048_S2048x5_S1024x5_1_0_0_1_n_n.rhsNonContracting by decide)]
  rfl

/-- The block product into the zero accumulator, at row r and column j: Σ_kk a(r, kk) · b(kk, j). -/
theorem blkprod_apply (a : FVec Ideal S1024x2048 .bf16) (b : FVec Ideal S2048x5 .bf16) (r : Fin 1024) (j : Fin 5) :
    FloatOps.matmul dot_S1024x2048_S2048x5_S1024x5_1_0_0_1_n_n none a b (constant (F := Ideal) S1024x5 .f32 0x00000000#32) (ix2 r j)
      = ∑ kk : Fin 2048, (a (ix2 r kk) : EReal) * (b (ix2 kk j) : EReal) := by
  rw [Ideal.matmul_constant_zero_apply, ← Equiv.sum_comp (contrEquiv1 dot_S1024x2048_S2048x5_S1024x5_1_0_0_1_n_n 2048 rfl rfl).symm]
  refine Finset.sum_congr rfl fun k _ => ?_
  have hk := contrEquiv1_symm_val dot_S1024x2048_S2048x5_S1024x5_1_0_0_1_n_n 2048 rfl rfl k
  have el : dot_S1024x2048_S2048x5_S1024x5_1_0_0_1_n_n.lhsIdx (ix2 r j) ((contrEquiv1 dot_S1024x2048_S2048x5_S1024x5_1_0_0_1_n_n 2048 rfl rfl).symm k) = ix2 r k := funext fun a => Fin.ext (by
    match a with
    | ⟨0, _⟩ => exact lhs_blk_0 _ _
    | ⟨1, _⟩ => exact (lhs_blk_1 _ _).trans hk)
  have er : dot_S1024x2048_S2048x5_S1024x5_1_0_0_1_n_n.rhsIdx (ix2 r j) ((contrEquiv1 dot_S1024x2048_S2048x5_S1024x5_1_0_0_1_n_n 2048 rfl rfl).symm k) = ix2 k j := funext fun a => Fin.ext (by
    match a with
    | ⟨0, _⟩ => exact (rhs_blk_0 _ _).trans hk
    | ⟨1, _⟩ => exact rhs_blk_1 _ _)
  rw [el, er]

/-- The reset's block is zero everywhere. -/
theorem pay1_apply (r : Fin 1024) (j : Fin 5) : k0_pay1 (F := Ideal) (ix2 r j) = (0 : EReal) := by
  unfold k0_pay1
  refine (congrFun (shapeCast_self _ _) (ix2 r j)).trans ?_
  exact Ideal.ofBits_zero_f32

/-- The update at row r and column j: the accumulator there plus the block product there. -/
theorem pay2_apply (x0 : Vec Ideal S1024x2048 .f32) (x1 : Vec Ideal S2048x5 .f32) (acc : Vec Ideal S1024x5 .f32) (r : Fin 1024) (j : Fin 5) :
    k0_pay2 (F := Ideal) x0 x1 acc (ix2 r j)
      = (acc (ix2 r j) : EReal) + ∑ kk : Fin 2048, (x0 (ix2 r kk) : EReal) * (x1 (ix2 kk j) : EReal) := by
  unfold k0_pay2
  refine (congrFun (shapeCast_self _ _) (ix2 r j)).trans ?_
  refine (addf_apply _ _ _).trans ?_
  refine congrArg (fun z : EReal => (acc (ix2 r j) : EReal) + z) ?_
  exact blkprod_apply _ _ r j

end Cert.KernelIdeal.Val

end
-- ==== Proof.KI.Blocks.lean ====
/-
  The blocks the grid step reads, as entries of the whole arrays. The grid is 12 × 8, row-major: point t is row block
  t / 8 and column block t % 8. At point t the x window holds rows 1024·(t/8) … and columns 2048·(t%8) … of x, the W1
  window holds rows 2048·(t%8) … of W1 (all 5 columns), and the output window is rows 1024·(t/8) … of the result.
  A block's coordinate on an axis is always block index × block size + the coordinate inside the block.
-/
import proofs.«106697_j46462956208716_1_alg».proof.Proof.KI.Runs
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The x block at point t, at its literal type. -/
abbrev xblk (c : Dev nD) (t : Fin cfg0.N) : Vec F S1024x2048 .f32 := iblk m c 0 t
/-- The W1 block at point t, at its literal type. -/
abbrev wblk (c : Dev nD) (t : Fin cfg0.N) : Vec F S2048x5 .f32 := iblk m c 1 t
/-- The array x as launched. -/
abbrev xarr (c : Dev nD) : Vec F S12288x16384 .f32 := m ((c.tc : Thread nD τ).loc main_arg0)
/-- The array W1 as launched. -/
abbrev warr (c : Dev nD) : Vec F S16384x5 .f32 := m ((c.tc : Thread nD τ).loc main_arg2)

/-- The three windows' block indices over the row-major 12 × 8 grid. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The x block at point t, entry (r, kk), is x at row 1024·(t/8) + r and column 2048·(t%8) + kk. -/
theorem xblk_apply (c : Dev nD) (t : Fin cfg0.N) (r : Fin 1024) (kk : Fin 2048) (i : Fin 12288) (k : Fin 16384)
    (hi : i.val = 1024 * (t.val / 8) + r.val) (hk : k.val = 2048 * (t.val % 8) + kk.val) :
    xblk m c t (ix2 r kk) = xarr m c (ix2 i k) := by
  obtain ⟨e0, e1, -, -, -, -⟩ := idx_facts t
  unfold xblk iblk
  rw [View.read_apply]
  show V m c main_arg0 _ = m (c.tc.loc main_arg0) _
  unfold V
  congr 1
  funext a
  apply Fin.ext
  match a with
  | ⟨0, _⟩ => show win0_0.index t (0 : Fin 2) * 1024 + 1 * r.val = i.val; rw [e0, hi]; omega
  | ⟨1, _⟩ => show win0_0.index t (1 : Fin 2) * 2048 + 1 * kk.val = k.val; rw [e1, hk]; omega

/-- The W1 block at point t, entry (kk, j), is W1 at row 2048·(t%8) + kk and column j. -/
theorem wblk_apply (c : Dev nD) (t : Fin cfg0.N) (kk : Fin 2048) (j : Fin 5) (k : Fin 16384)
    (hk : k.val = 2048 * (t.val % 8) + kk.val) :
    wblk m c t (ix2 kk j) = warr m c (ix2 k j) := by
  obtain ⟨-, -, e0, e1, -, -⟩ := idx_facts t
  unfold wblk iblk
  rw [View.read_apply]
  show V m c main_arg2 _ = m (c.tc.loc main_arg2) _
  unfold V
  congr 1
  funext a
  apply Fin.ext
  match a with
  | ⟨0, _⟩ => show win0_1.index t (0 : Fin 2) * 2048 + 1 * kk.val = k.val; rw [e0, hk]; omega
  | ⟨1, _⟩ => show win0_1.index t (1 : Fin 2) * 5 + 1 * j.val = j.val; rw [e1]; omega

end Cert.KernelIdeal.Val

end
-- ==== Proof.KI.Pieces.lean ====
/-
  What each of the three cases of the grid step leaves behind, as the step's arithmetic applied to the blocks it read.
  With k = 0 the accumulator is first set to the zero block and then updated, so it ends at the update of the zero block;
  with 0 < k the accumulator ends at the update of what it held; with k = 7 the output block receives a copy of the
  accumulator just updated. Each is one store through the whole buffer (or a reset followed by one), whose loads read whole buffers.
-/
import proofs.«106697_j46462956208716_1_alg».proof.Proof.KI.Frame
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem

variable {F : FTy → Type} [FloatOps F]

/-- The zero offset of a whole-buffer access. -/
theorem hz : (![0, 0] : Fin 2 → Nat) = fun _ => 0 := funext fun a => by fin_cases a <;> rfl

/-- k = 0: the accumulator ends at the update of the zero block. -/
theorem accA_eq (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : cond0_0 i) (hc1 : ¬cond0_1 i)
    (x0 : Vec F S1024x2048 .f32) (x1 : Vec F S2048x5 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x5) hz, View.readCov_unit_zero (S := S1024x5) _ hz]
  simp only [View.readAt_eq_ld, harg2.read_unread, harg3.read_unread, View.ld_unit_zero (S := S1024x2048) hz, View.ld_unit_zero (S := S2048x5) hz]

/-- 0 < k < 7: the accumulator ends at the update of what it held. -/
theorem accB_eq (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : ¬cond0_1 i)
    (x0 : Vec F S1024x2048 .f32) (x1 : Vec F S2048x5 .f32) (xs0 : Vec F S1024x5 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1024x5) hz]
  simp only [View.readAt_eq_ld, harg2.read_unread, harg3.read_unread, harg5.read_unread, View.ld_unit_zero (S := S1024x2048) hz, View.ld_unit_zero (S := S2048x5) hz, View.ld_unit_zero (S := S1024x5) hz]

/-- k = 7: the accumulator ends at the update of what it held, -/
theorem accC_eq (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : cond0_1 i)
    (x0 : Vec F S1024x2048 .f32) (x1 : Vec F S2048x5 .f32) (xs0 : Vec F S1024x5 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1024x5) hz]
  simp only [View.readAt_eq_ld, harg2.read_unread, harg3.read_unread, harg5.read_unread, View.ld_unit_zero (S := S1024x2048) hz, View.ld_unit_zero (S := S2048x5) hz, View.ld_unit_zero (S := S1024x5) hz]

/-- and the output block receives that same value. -/
theorem outC_eq (c : Dev nD) (i : grid0.Coords) (arg2 : Memref sig .tc .vmem S1024x2048 .f32) (harg2 : arg2.IsWhole) (arg3 : Memref sig .tc .vmem S2048x5 .f32) (harg3 : arg3.IsWhole) (arg4 : Memref sig .tc .vmem S1024x5 .f32) (harg4 : arg4.IsWhole) (arg5 : Memref sig .tc .vmem S1024x5 .f32) (harg5 : arg5.IsWhole) (hc0 : ¬cond0_0 i) (hc1 : cond0_1 i)
    (x0 : Vec F S1024x2048 .f32) (x1 : Vec F S2048x5 .f32) (xs0 : Vec F S1024x5 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1024x5) hz, View.readCov_unit_zero (S := S1024x5) _ hz]
  simp only [View.readAt_eq_ld, harg2.read_unread, harg3.read_unread, harg5.read_unread, View.ld_unit_zero (S := S1024x2048) hz, View.ld_unit_zero (S := S2048x5) hz, View.ld_unit_zero (S := S1024x5) hz]

end Cert.KernelIdeal.Val

end
-- ==== Proof.Spec.lean ====
/-
  The specification of the kernel region: the product x · W1 over the extended reals, one entry at a time,
  (x · W1)(i, j) = Σ_k x(i, k) · W1(k, j), k over all 16384 columns.
-/
import proofs.«106697_j46462956208716_1_alg».proof.KernelIdeal
import Idealize.ShloMosaic.Lib.ValueIdx
import Idealize.ShloMosaic.PureOps.Ideal

noncomputable section

open scoped BigOperators

namespace Cert.Spec

open Idealize.ShloMosaic Idealize.ShloMosaic.ValueIdx Cert.KernelIdeal

/-- The matrix product of the 12288 × 16384 array `x` and the 16384 × 5 array `w`, entry by entry, on the extended reals. -/
def hK (x : FVec Ideal S12288x16384 .f32) (w : FVec Ideal S16384x5 .f32) : FVec Ideal S12288x5 .f32 :=
  fun i => ∑ k : Fin 16384, (x (ix2 (i 0) k) : EReal) * (w (ix2 k (i 1)) : EReal)

theorem hK_apply (x : FVec Ideal S12288x16384 .f32) (w : FVec Ideal S16384x5 .f32) (r : Fin 12288) (j : Fin 5) :
    hK x w (ix2 r j) = ∑ k : Fin 16384, (x (ix2 r k) : EReal) * (w (ix2 k j) : EReal) := rfl

end Cert.Spec

end
-- ==== Proof.KI.Value.lean ====
/-
  The value of the blocked product. After grid point t = 8·ib + kb the accumulator holds, at row r and column j, the sum
  over the first 2048·(kb + 1) columns k of x(1024·ib + r, k) · W1(k, j): the reset at kb = 0 starts it from the first
  block's sum and every later point adds the next 2048 terms. At kb = 7 that is the sum over all 16384 columns, and the
  point copies it to the output block, rows 1024·ib … of the result. The twelve points with kb = 7 cover all 12288 rows,
  so the result array ends holding x · W1. Sums over the extended reals form a commutative monoid: splitting a range
  of terms into consecutive stretches needs no finiteness.
-/
import proofs.«106697_j46462956208716_1_alg».proof.Proof.KI.Frame
import proofs.«106697_j46462956208716_1_alg».proof.Proof.KI.Payload
import proofs.«106697_j46462956208716_1_alg».proof.Proof.KI.Blocks
import proofs.«106697_j46462956208716_1_alg».proof.Proof.KI.Pieces
import proofs.«106697_j46462956208716_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-! ## Partial sums of one entry of the product -/

/-- The term of entry (i, j) of x · W1 at column n, counted by a natural number (zero past the last column). -/
def term (x : FVec Ideal S12288x16384 .f32) (w : FVec Ideal S16384x5 .f32) (i : Fin 12288) (j : Fin 5) (n : ℕ) : EReal :=
  if h : n < 16384 then (x (ix2 i ⟨n, h⟩) : EReal) * (w (ix2 ⟨n, h⟩ j) : EReal) else 0

/-- The sum of the first n terms of entry (i, j). -/
def psum (x : FVec Ideal S12288x16384 .f32) (w : FVec Ideal S16384x5 .f32) (i : Fin 12288) (j : Fin 5) (n : ℕ) : EReal :=
  ∑ k ∈ Finset.range n, term x w i j k

/-- The first a + b terms are the first a and then the next b. -/
theorem psum_add (x : FVec Ideal S12288x16384 .f32) (w : FVec Ideal S16384x5 .f32) (i : Fin 12288) (j : Fin 5) (a b : ℕ) :
    psum x w i j (a + b) = psum x w i j a + ∑ k ∈ Finset.range b, term x w i j (a + k) :=
  Finset.sum_range_add _ _ _

/-- All 16384 terms: the entry of the product. -/
theorem psum_full (x : FVec Ideal S12288x16384 .f32) (w : FVec Ideal S16384x5 .f32) (i : Fin 12288) (j : Fin 5) :
    psum x w i j 16384 = Cert.Spec.hK x w (ix2 i j) := by
  unfold psum
  rw [Finset.sum_range, Cert.Spec.hK_apply]
  refine Finset.sum_congr rfl fun k _ => ?_
  unfold term
  rw [dif_pos k.isLt]

variable (m : (ℓ : Loc nD τ sig) → Buf (Elt Ideal) ℓ)

/-- The block product at point t, entry (r, j), is the stretch of 2048 terms of entry (1024·(t/8) + r, j) that starts at column 2048·(t%8). -/
theorem blk_sum (c : Dev nD) (t : Fin cfg0.N) (r : Fin 1024) (j : Fin 5) (i : Fin 12288) (hi : i.val = 1024 * (t.val / 8) + r.val) :
    ∑ kk : Fin 2048, (xblk m c t (ix2 r kk) : EReal) * (wblk m c t (ix2 kk j) : EReal)
      = ∑ k ∈ Finset.range 2048, term (xarr m c) (warr m c) i j (2048 * (t.val % 8) + k) := by
  rw [Finset.sum_range]
  refine Finset.sum_congr rfl fun kk _ => ?_
  have hlt : 2048 * (t.val % 8) + kk.val < 16384 := by have := kk.isLt; omega
  unfold term
  rw [dif_pos hlt]
  exact congrArg₂ (fun a b : EReal => a * b) (xblk_apply m c t r kk i ⟨_, hlt⟩ hi rfl) (wblk_apply m c t kk j ⟨_, hlt⟩ rfl)

/-! ## One grid step, entry by entry -/

/-- k = 0: the accumulator ends at the block product alone. -/
theorem accA_at (c : Dev nD) (t : Fin cfg0.N) (h0 : t.val % 8 = 0) (h1 : ¬t.val % 8 = 7) (r : Fin 1024) (j : Fin 5) :
    (outsAt0 m c t.val t.isLt).2 (ix2 r j) = ∑ kk : Fin 2048, (xblk m c t (ix2 r kk) : EReal) * (wblk m c t (ix2 kk j) : EReal) := by
  rw [outsAt0_A m c t h0 h1]
  dsimp only
  refine (congrFun (accA_eq (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xblk m c t) (wblk m c t)) (ix2 r j)).trans ?_
  refine (pay2_apply (xblk m c t) (wblk m c t) (k0_pay1 (F := Ideal)) r j).trans ?_
  rw [pay1_apply, zero_add]

/-- 0 < k: the accumulator ends at what the point before left plus the block product. -/
theorem acc_step (c : Dev nD) (t : Fin cfg0.N) (h0 : ¬t.val % 8 = 0) (r : Fin 1024) (j : Fin 5) :
    (outsAt0 m c t.val t.isLt).2 (ix2 r j)
      = ((outsAt0 m c (t.val - 1) (Nat.lt_of_le_of_lt (Nat.sub_le _ _) t.isLt)).2 (ix2 r j) : EReal) + ∑ kk : Fin 2048, (xblk m c t (ix2 r kk) : EReal) * (wblk m c t (ix2 kk j) : EReal) := by
  by_cases h1 : t.val % 8 = 7
  · rw [outsAt0_C m c t h0 h1]
    dsimp only
    refine (congrFun (accC_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) (outsAt0 m c (t.val - 1) (Nat.lt_of_le_of_lt (Nat.sub_le _ _) t.isLt)).2) (ix2 r j)).trans ?_
    exact pay2_apply (xblk m c t) (wblk m c t) (outsAt0 m c (t.val - 1) (Nat.lt_of_le_of_lt (Nat.sub_le _ _) t.isLt)).2 r j
  · rw [outsAt0_B m c t h0 h1]
    dsimp only
    refine (congrFun (accB_eq (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xblk m c t) (wblk m c t) (outsAt0 m c (t.val - 1) (Nat.lt_of_le_of_lt (Nat.sub_le _ _) t.isLt)).2) (ix2 r j)).trans ?_
    exact pay2_apply (xblk m c t) (wblk m c t) (outsAt0 m c (t.val - 1) (Nat.lt_of_le_of_lt (Nat.sub_le _ _) t.isLt)).2 r j

/-- k = 7: the output block receives what the point before left plus the block product. -/
theorem out_step (c : Dev nD) (t : Fin cfg0.N) (h0 : ¬t.val % 8 = 0) (h1 : t.val % 8 = 7) (r : Fin 1024) (j : Fin 5) :
    (outsAt0 m c t.val t.isLt).1 (ix2 r j)
      = ((outsAt0 m c (t.val - 1) (Nat.lt_of_le_of_lt (Nat.sub_le _ _) t.isLt)).2 (ix2 r j) : EReal) + ∑ kk : Fin 2048, (xblk m c t (ix2 r kk) : EReal) * (wblk m c t (ix2 kk j) : EReal) := by
  rw [outsAt0_C m c t h0 h1]
  dsimp only
  refine (congrFun (outC_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) (outsAt0 m c (t.val - 1) (Nat.lt_of_le_of_lt (Nat.sub_le _ _) t.isLt)).2) (ix2 r j)).trans ?_
  exact pay2_apply (xblk m c t) (wblk m c t) (outsAt0 m c (t.val - 1) (Nat.lt_of_le_of_lt (Nat.sub_le _ _) t.isLt)).2 r j

/-! ## The accumulator after every point -/

/-- After point n = 8·ib + kb the accumulator at (r, j) is the sum of the first 2048·kb + 2048 terms of entry (1024·ib + r, j). -/
theorem acc_inv (c : Dev nD) : ∀ (n : ℕ) (hn : n < cfg0.N) (r : Fin 1024) (j : Fin 5) (i : Fin 12288), i.val = 1024 * (n / 8) + r.val →
    (outsAt0 m c n hn).2 (ix2 r j) = psum (xarr m c) (warr m c) i j (2048 * (n % 8) + 2048) := by
  intro n
  induction n with
  | zero =>
    intro hn r j i hi
    refine (accA_at m c ⟨0, hn⟩ rfl (by show ¬(0 : ℕ) % 8 = 7; omega) r j).trans ?_
    rw [blk_sum m c ⟨0, hn⟩ r j i hi, psum_add]
    dsimp only
    show _ = psum (xarr m c) (warr m c) i j 0 + _
    unfold psum
    rw [Finset.sum_range_zero, zero_add]
  | succ n ih =>
    intro hn r j i hi
    by_cases h0 : (n + 1) % 8 = 0
    · refine (accA_at m c ⟨n + 1, hn⟩ h0 (by dsimp only; omega) r j).trans ?_
      rw [blk_sum m c ⟨n + 1, hn⟩ r j i hi, psum_add]
      dsimp only
      rw [h0]
      show _ = psum (xarr m c) (warr m c) i j 0 + _
      unfold psum
      rw [Finset.sum_range_zero, zero_add]
    · refine (acc_step m c ⟨n + 1, hn⟩ h0 r j).trans ?_
      show ((outsAt0 m c n (Nat.lt_of_succ_lt hn)).2 (ix2 r j) : EReal) + _ = _
      rw [ih (Nat.lt_of_succ_lt hn) r j i (by omega), blk_sum m c ⟨n + 1, hn⟩ r j i hi]
      dsimp only
      have e : (n + 1) % 8 = n % 8 + 1 := by omega
      rw [e, show 2048 * (n % 8 + 1) = 2048 * (n % 8) + 2048 from by omega]
      exact (psum_add (xarr m c) (warr m c) i j _ _).symm

/-- At a point with k = 7 the output block holds the rows 1024·(t/8) … of the product. -/
theorem out_inv (c : Dev nD) (t : Fin cfg0.N) (h7 : t.val % 8 = 7) (r : Fin 1024) (j : Fin 5) (i : Fin 12288)
    (hi : i.val = 1024 * (t.val / 8) + r.val) :
    (outsAt0 m c t.val t.isLt).1 (ix2 r j) = Cert.Spec.hK (xarr m c) (warr m c) (ix2 i j) := by
  have h0 : ¬t.val % 8 = 0 := by omega
  refine (out_step m c t h0 h7 r j).trans ?_
  rw [acc_inv m c (t.val - 1) (Nat.lt_of_le_of_lt (Nat.sub_le _ _) t.isLt) r j i (by omega), blk_sum m c t r j i hi]
  have e : (t.val - 1) % 8 = 6 := by omega
  rw [e, h7, ← psum_add]
  exact psum_full (xarr m c) (warr m c) i j

/-- The same over any index of the block and any index of the result that lies on the block's rows at the same place. -/
theorem out_at (c : Dev nD) (t : Fin cfg0.N) (h7 : t.val % 8 = 7) (y : S1024x5.Idx) (z : S12288x5.Idx)
    (hz0 : (z 0).val = 1024 * (t.val / 8) + (y 0).val) (hz1 : (z 1).val = (y 1).val) :
    (outsAt0 m c t.val t.isLt).1 y = Cert.Spec.hK (xarr m c) (warr m c) z := by
  obtain ⟨r, j, rfl⟩ : ∃ (r : Fin 1024) (j : Fin 5), y = ix2 r j := ⟨y 0, y 1, eq_ix2 y⟩
  obtain ⟨i, j', rfl⟩ : ∃ (i : Fin 12288) (j' : Fin 5), z = ix2 i j' := ⟨z 0, z 1, eq_ix2 z⟩
  obtain rfl : j' = j := Fin.ext hz1
  exact out_inv m c t h7 r j' i hz0

/-! ## From the output blocks to the result array -/

/-- What a point with k = 7 writes back is its block of x · W1. -/
theorem flushed_eq (c : Dev nD) (t : Fin cfg0.N) (hf : (cfg0.win 2).flush t = true) :
    (dats m 0 c).flushed 2 t = ((cfg0.win 2).blk t).view.read (Elt Ideal) (Cert.Spec.hK (xarr m c) (warr m c)) := by
  have h7 : t.val % 8 = 7 := (flush0_2 t).mp hf
  obtain ⟨-, -, -, -, e0, e1⟩ := idx_facts t
  show (cfg0.win 2).cut (grid0.coords t) ((dats m 0 c).after 2 t) = _
  rw [after0_2]
  funext y
  rw [View.read_apply]
  show (outsAt0 m c t.val t.isLt).1 (win0_2.xinj (grid0.coords t) y) = cast _ (Cert.Spec.hK (xarr m c) (warr m c) (((cfg0.win 2).blk t).view.emb y))
  rw [cast_eq]
  refine out_at m c t h7 (win0_2.xinj (grid0.coords t) y) (((cfg0.win 2).blk t).view.emb y) ?_ ?_
  · show win0_2.index t (0 : Fin 2) * 1024 + 1 * (y 0).val = 1024 * (t.val / 8) + (y 0).val
    rw [e0]; omega
  · show win0_2.index t (1 : Fin 2) * 5 + 1 * (y 1).val = (y 1).val
    rw [e1]; omega

/-- An index of the result is in point t's block iff each coordinate is in the block's range on its axis. -/
theorem mem_oblk (t : Fin cfg0.N) (i : S12288x5.Idx) :
    i ∈ ((cfg0.win 2).blk t).view.set ↔ ∀ a : Fin 2, win0_2.index t a * S1024x5.size a ≤ (i a).val ∧ (i a).val < win0_2.index t a * S1024x5.size a + S1024x5.size a := by
  show i ∈ ((View.whole main_v0).slice (win0_2.rect t)).set ↔ _
  rw [View.set_slice_whole, Rect.mem_set_unit]
  exact Iff.rfl

/-- Row ρ of the result is written back by the point 8·(ρ / 1024) + 7. -/
theorem covered (i : S12288x5.Idx) : ∃ t : Fin cfg0.N, (cfg0.win 2).flush t = true ∧ i ∈ ((cfg0.win 2).blk t).view.set := by
  have hi0 : (i 0).val < 12288 := (i 0).isLt
  have hi1 : (i 1).val < 5 := (i 1).isLt
  have hN : cfg0.N = 96 := N_0
  have hlt : 8 * ((i 0).val / 1024) + 7 < cfg0.N := by rw [hN]; omega
  refine ⟨⟨8 * ((i 0).val / 1024) + 7, hlt⟩, (flush0_2 ⟨8 * ((i 0).val / 1024) + 7, hlt⟩).mpr (by dsimp only; omega), ?_⟩
  obtain ⟨-, -, -, -, e0, e1⟩ := idx_facts ⟨8 * ((i 0).val / 1024) + 7, hlt⟩
  rw [mem_oblk]
  intro a
  match a with
  | ⟨0, _⟩ =>
    show win0_2.index _ (0 : Fin 2) * 1024 ≤ (i 0).val ∧ (i 0).val < win0_2.index _ (0 : Fin 2) * 1024 + 1024
    rw [e0]; dsimp only; omega
  | ⟨1, _⟩ =>
    show win0_2.index _ (1 : Fin 2) * 5 ≤ (i 1).val ∧ (i 1).val < win0_2.index _ (1 : Fin 2) * 5 + 5
    rw [e1]; omega

/-- After the whole grid the result array holds x · W1. -/
theorem arrAt_out (m : (ℓ : Loc nD τ sig) → Buf (Elt Ideal) ℓ) (c : Dev nD) :
    (Fr.dats (F := Ideal) m 0 c).arrAt 2 cfg0.N = Cert.Spec.hK (m ((c.tc : Thread nD τ).loc main_arg0)) (m ((c.tc : Thread nD τ).loc main_arg2)) :=
  (dats m 0 c).arrAt_eq_of_cover 2 (Cert.Spec.hK (xarr m c) (warr m c)) (flushed_eq m c) covered

end Cert.KernelIdeal.Val

end
-- ==== Proof.TailEq.lean ====
/-
  The 140 host operations that follow the padded product are the same in the two programs. After the kernel program's
  host lines — pad the region's 12288 × 5 result with 4096 zero rows, then the two graph-convolution layers: symmetric
  degree normalisation of the edge list with self loops, gather / scale / scatter-add, bias, relu, the 5 → 1 product, the
  second normalised propagation, bias and the row-wise log-softmax — the last buffer holds what the reference's composed
  term holds, as soon as the edge list, the two biases and the second weight agree and the two programs' 16384 × 5
  arrays that enter the shared operations agree.
-/
import proofs.«106697_j46462956208716_1_alg».proof.Proof.KI.Runs
import proofs.«106697_j46462956208716_1_alg».proof.Proof.RefRun
import Idealize.ShloMosaic.Lib.Pipeline.FrameSuffix
import Idealize.ShloMosaic.Lib.StableHlo.Run

noncomputable section

namespace Cert.TailEq

open Idealize.ShloMosaic Idealize.ShloMosaic.TcCoe Idealize.ShloMosaic.StableHlo

variable {F : FTy → Type} [FloatOps F]

/-- A reshape is the one-operand operation that re-reads the operand's elements at the result's shape. -/
theorem reshape_eq_unary {τ : Topo} {sig : RefSig} {Val : EltTy → Type} (x y : Ref sig .tc) (he : x.ty.elt = y.ty.elt)
    (hn : x.ty.shape.ShapeCasts y.ty.shape) (hx : x.space ≠ .host ∧ (x : DevRef τ sig).isScoped = false)
    (hy : y.space ≠ .host ∧ (y : DevRef τ sig).isScoped = false) :
    (reshape (τ := τ) (Val := Val) x y he hn hx hy) = unary x y (fun v i => he ▸ shapeCast y.ty.shape v hn i) hx hy := rfl

/-- The concatenation of two arrays, with its side condition stated over the two shapes alone, so that the two
    operands are ordinary arguments (in `concatenate` the side condition's statement mentions the operand list). -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem concatenate_pair {α : Type} (t : Shape) (a : Fin t.rank) (s₁ s₂ : Shape) (h : Shape.Concatenates [s₁, s₂] t a)
    (x₁ : s₁.Idx → α) (x₂ : s₂.Idx → α) : concatenate t a [⟨s₁, x₁⟩, ⟨s₂, x₂⟩] h = cat2 t a s₁ s₂ h x₁ x₂ := rfl

set_option maxRecDepth 65536 in
set_option maxHeartbeats 57600000 in
/-- The kernel program's last buffer after its host lines, run from the region's exit contents, is the reference's
    composed term: the shared 140 operations applied to equal inputs. -/
theorem tail_eq
    (mK : (ℓ : Loc KernelIdeal.nD KernelIdeal.τ KernelIdeal.sig) → Buf (Elt F) ℓ)
    (mR : (ℓ : Loc ReferenceIdeal.nD ReferenceIdeal.τ ReferenceIdeal.sig) → Buf (Elt F) ℓ)
    (c : Dev KernelIdeal.nD)
    (A : (w : Fin 3) → Buf (Elt F) ((KernelIdeal.spec0 w).arr.view.loc (c.tc : Thread KernelIdeal.nD KernelIdeal.τ)))
    (h1 : mR ((c.tc : Thread ReferenceIdeal.nD ReferenceIdeal.τ).loc ReferenceIdeal.main_arg1)
        = mK ((c.tc : Thread KernelIdeal.nD KernelIdeal.τ).loc KernelIdeal.main_arg1))
    (h3 : mR ((c.tc : Thread ReferenceIdeal.nD ReferenceIdeal.τ).loc ReferenceIdeal.main_arg3)
        = mK ((c.tc : Thread KernelIdeal.nD KernelIdeal.τ).loc KernelIdeal.main_arg3))
    (h4 : mR ((c.tc : Thread ReferenceIdeal.nD ReferenceIdeal.τ).loc ReferenceIdeal.main_arg4)
        = mK ((c.tc : Thread KernelIdeal.nD KernelIdeal.τ).loc KernelIdeal.main_arg4))
    (h5 : mR ((c.tc : Thread ReferenceIdeal.nD ReferenceIdeal.τ).loc ReferenceIdeal.main_arg5)
        = mK ((c.tc : Thread KernelIdeal.nD KernelIdeal.τ).loc KernelIdeal.main_arg5))
    (hb : concatenate KernelIdeal.S16384x5 0
          [⟨KernelIdeal.S12288x5, A 2⟩,
           ⟨KernelIdeal.S4096x5, broadcastInDim KernelIdeal.S4096x5 ![] KernelIdeal.Facts₀.bcast_S_S4096x5 (constant (F := F) KernelIdeal.S_ .f32 0x00000000#32)⟩]
          KernelIdeal.Facts₀.concatenates_S12288x5_S4096x5_S16384x5_d0
        = Host.dotGeneral ReferenceIdeal.dot_S16384x16384_S16384x5_S16384x5_1_0_0_1_n_n none
            (concatenate ReferenceIdeal.S16384x16384 0
              [⟨ReferenceIdeal.S12288x16384, mR ((c.tc : Thread ReferenceIdeal.nD ReferenceIdeal.τ).loc ReferenceIdeal.main_arg0)⟩,
               ⟨ReferenceIdeal.S4096x16384, broadcastInDim ReferenceIdeal.S4096x16384 ![] ReferenceIdeal.Facts₀.bcast_S_S4096x16384 (constant (F := F) ReferenceIdeal.S_ .f32 0x00000000#32)⟩]
              ReferenceIdeal.Facts₀.concatenates_S12288x16384_S4096x16384_S16384x16384_d0)
            (mR ((c.tc : Thread ReferenceIdeal.nD ReferenceIdeal.τ).loc ReferenceIdeal.main_arg2))) :
    StableHlo.after (KernelIdeal.Fr.tailOps (F := F)).flatten
        (Pipeline.withArrays KernelIdeal.spec0 c (KernelIdeal.Fr.V0 mK c) A) (Proc.devRef .tc KernelIdeal.main_v100)
      = ReferenceIdeal.Value.res_main_v100 mR c := by
  have e0 : Pipeline.withArrays KernelIdeal.spec0 c (KernelIdeal.Fr.V0 mK c) A (Proc.devRef .tc KernelIdeal.main_v0) = A 2 :=
    Pipeline.withArrays_arr KernelIdeal.spec0 KernelIdeal.Gen.launch0.win.arr_inj c _ A 2
  have e1 : Pipeline.withArrays KernelIdeal.spec0 c (KernelIdeal.Fr.V0 mK c) A (Proc.devRef .tc KernelIdeal.main_arg1)
      = mR ((c.tc : Thread ReferenceIdeal.nD ReferenceIdeal.τ).loc ReferenceIdeal.main_arg1) :=
    (Pipeline.withArrays_of_ne KernelIdeal.spec0 c _ A KernelIdeal.main_arg1 (by decide)).trans h1.symm
  have e3 : Pipeline.withArrays KernelIdeal.spec0 c (KernelIdeal.Fr.V0 mK c) A (Proc.devRef .tc KernelIdeal.main_arg3)
      = mR ((c.tc : Thread ReferenceIdeal.nD ReferenceIdeal.τ).loc ReferenceIdeal.main_arg3) :=
    (Pipeline.withArrays_of_ne KernelIdeal.spec0 c _ A KernelIdeal.main_arg3 (by decide)).trans h3.symm
  have e4 : Pipeline.withArrays KernelIdeal.spec0 c (KernelIdeal.Fr.V0 mK c) A (Proc.devRef .tc KernelIdeal.main_arg4)
      = mR ((c.tc : Thread ReferenceIdeal.nD ReferenceIdeal.τ).loc ReferenceIdeal.main_arg4) :=
    (Pipeline.withArrays_of_ne KernelIdeal.spec0 c _ A KernelIdeal.main_arg4 (by decide)).trans h4.symm
  have e5 : Pipeline.withArrays KernelIdeal.spec0 c (KernelIdeal.Fr.V0 mK c) A (Proc.devRef .tc KernelIdeal.main_arg5)
      = mR ((c.tc : Thread ReferenceIdeal.nD ReferenceIdeal.τ).loc ReferenceIdeal.main_arg5) :=
    (Pipeline.withArrays_of_ne KernelIdeal.spec0 c _ A KernelIdeal.main_arg5 (by decide)).trans h5.symm
  generalize Pipeline.withArrays KernelIdeal.spec0 c (KernelIdeal.Fr.V0 mK c) A = W at e0 e1 e3 e4 e5 ⊢
  -- the eight stretches as one list of 143 operations; the four reshapes as one-operand operations
  simp only [KernelIdeal.Fr.tailOps, KernelIdeal.Gen.hostOps1, KernelIdeal.Gen.hostOps1_1, KernelIdeal.Gen.hostOps1_2, KernelIdeal.Gen.hostOps1_3,
    KernelIdeal.Gen.hostOps1_4, KernelIdeal.Gen.hostOps1_5, KernelIdeal.Gen.hostOps1_6, KernelIdeal.Gen.hostOps1_7,
    List.flatten_cons, List.flatten_nil, List.append_nil, List.cons_append, List.nil_append]
  rw [reshape_eq_unary KernelIdeal.main_v4 KernelIdeal.main_v5, reshape_eq_unary KernelIdeal.main_v7 KernelIdeal.main_v8,
    reshape_eq_unary KernelIdeal.main_v54 KernelIdeal.main_v55, reshape_eq_unary KernelIdeal.main_v57 KernelIdeal.main_v58]
  -- each operation's result at its own buffer is its function of its operands' contents, and any other buffer is untouched
  simp (disch := decide) only [after_cons, after_nil, concatenate_pair,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [TRef.ofBuf, TRef.toBuf, cast_eq]
  -- the inputs: the region's result and the four arguments the shared operations read
  rw [e0, e1, e3, e4, e5]
  -- the padded product is the reference's product of the padded array
  rw [concatenate_pair] at hb
  rw [hb]
  unfold cat2 ReferenceIdeal.Value.res_main_v100
  rfl

end Cert.TailEq

end
-- ==== Proof.Bridge.lean ====
/-
  The padded product. The kernel side multiplies first and pads afterwards: the 12288 × 5 product x · W1 with 4096 zero
  rows laid under it. The reference pads first and multiplies afterwards: x with 4096 zero rows laid under it, times W1.
  The two 16384 × 5 arrays are equal entry by entry on the extended reals. At a row r < 12288 both are
  Σ_k x(r, k) · W1(k, q); at a row r ≥ 12288 the first is the padding 0 and the second is Σ_k 0 · W1(k, q) = 0.
-/
import proofs.«106697_j46462956208716_1_alg».proof.Proof.Spec
import proofs.«106697_j46462956208716_1_alg».proof.Proof.Gen.KernelIdeal
import proofs.«106697_j46462956208716_1_alg».proof.Proof.Gen.ReferenceIdeal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

/-! ## Two blocks of rows laid one under the other, read at an entry -/

section Rows
variable {α : Type} {n₁ n₂ n m : Nat}

/-- A row above the seam is a row of the upper block. -/
theorem rows_upper (x₁ : (⟨2, ![n₁, m]⟩ : Shape).Idx → α) (x₂ : (⟨2, ![n₂, m]⟩ : Shape).Idx → α)
    (h : Shape.Concatenates [(⟨2, ![n₁, m]⟩ : Shape), ⟨2, ![n₂, m]⟩] ⟨2, ![n, m]⟩ 0)
    (r : Fin n) (q : Fin m) (r₁ : Fin n₁) (hr : r₁.val = r.val) :
    concatenate (⟨2, ![n, m]⟩ : Shape) 0 [⟨⟨2, ![n₁, m]⟩, x₁⟩, ⟨⟨2, ![n₂, m]⟩, x₂⟩] h (ix2 r q) = x₁ (ix2 r₁ q) :=
  concatenate_pair_apply_left 0 x₁ x₂ h _ rfl _ (fun b => by
    match b with
    | ⟨0, _⟩ => exact hr
    | ⟨1, _⟩ => rfl)

/-- A row at or below the seam is a row of the lower block, the upper block's height less. -/
theorem rows_lower (x₁ : (⟨2, ![n₁, m]⟩ : Shape).Idx → α) (x₂ : (⟨2, ![n₂, m]⟩ : Shape).Idx → α)
    (h : Shape.Concatenates [(⟨2, ![n₁, m]⟩ : Shape), ⟨2, ![n₂, m]⟩] ⟨2, ![n, m]⟩ 0)
    (r : Fin n) (q : Fin m) (r₂ : Fin n₂) (hr : r₂.val + n₁ = r.val) :
    concatenate (⟨2, ![n, m]⟩ : Shape) 0 [⟨⟨2, ![n₁, m]⟩, x₁⟩, ⟨⟨2, ![n₂, m]⟩, x₂⟩] h (ix2 r q) = x₂ (ix2 r₂ q) :=
  concatenate_pair_apply_right 0 x₁ x₂ h _ rfl rfl _
    (fun b hb => by
      match b with
      | ⟨0, _⟩ => exact absurd rfl hb
      | ⟨1, _⟩ => rfl)
    hr

end Rows

/-! ## The padding: every entry of the splat of the zero pattern is 0 -/

theorem zeros_apply {t : Shape} (h : (⟨0, ![]⟩ : Shape).BroadcastsInDim t (![] : Fin 0 → Fin t.rank)) (j : t.Idx) :
    broadcastInDim t ![] h (constant (F := Ideal) (⟨0, ![]⟩ : Shape) .f32 0x00000000#32) j = (0 : EReal) := by
  refine (broadcastInDim_apply (s := ⟨0, ![]⟩) ![] h _ j (fun a => a.elim0) (fun a => a.elim0)).trans ?_
  exact Ideal.ofBits_zero_f32

/-! ## The host's product of a 16384 × 16384 array with a 16384 × 5 array, read at an entry -/

open Cert.ReferenceIdeal in
theorem lhs_dot_0 (i : S16384x5.Idx) (q : dot_S16384x16384_S16384x5_S16384x5_1_0_0_1_n_n.contr.Idx) :
    (dot_S16384x16384_S16384x5_S16384x5_1_0_0_1_n_n.lhsIdx i q 0).val = (i 0).val := by
  unfold DotDims.lhsIdx
  rw [dif_neg (show ¬(0 : Fin S16384x16384.rank) ∈ dot_S16384x16384_S16384x5_S16384x5_1_0_0_1_n_n.lhsBatch by decide), dif_pos (show (0 : Fin S16384x16384.rank) ∈ dot_S16384x16384_S16384x5_S16384x5_1_0_0_1_n_n.lhsNonContracting by decide)]
  rfl
open Cert.ReferenceIdeal in
theorem lhs_dot_1 (i : S16384x5.Idx) (q : dot_S16384x16384_S16384x5_S16384x5_1_0_0_1_n_n.contr.Idx) :
    (dot_S16384x16384_S16384x5_S16384x5_1_0_0_1_n_n.lhsIdx i q 1).val = (q ⟨0, by decide⟩).val :=
  dot_S16384x16384_S16384x5_S16384x5_1_0_0_1_n_n.lhsIdx_val_of_single rfl i q
open Cert.ReferenceIdeal in
theorem rhs_dot_0 (i : S16384x5.Idx) (q : dot_S16384x16384_S16384x5_S16384x5_1_0_0_1_n_n.contr.Idx) :
    (dot_S16384x16384_S16384x5_S16384x5_1_0_0_1_n_n.rhsIdx i q 0).val = (q ⟨0, by decide⟩).val :=
  dot_S16384x16384_S16384x5_S16384x5_1_0_0_1_n_n.rhsIdx_val_of_single rfl i q
open Cert.ReferenceIdeal in
theorem rhs_dot_1 (i : S16384x5.Idx) (q : dot_S16384x16384_S16384x5_S16384x5_1_0_0_1_n_n.contr.Idx) :
    (dot_S16384x16384_S16384x5_S16384x5_1_0_0_1_n_n.rhsIdx i q 1).val = (i 1).val := by
  unfold DotDims.rhsIdx
  rw [dif_neg (show ¬(1 : Fin S16384x5.rank) ∈ dot_S16384x16384_S16384x5_S16384x5_1_0_0_1_n_n.rhsBatch by decide), dif_pos (show (1 : Fin S16384x5.rank) ∈ dot_S16384x16384_S16384x5_S16384x5_1_0_0_1_n_n.rhsNonContracting by decide)]
  rfl

open Cert.ReferenceIdeal in
/-- Entry (r, q) of the host's product is Σ_k y(r, k) · w(k, q), on the extended reals. -/
theorem dot_apply (y : FVec Ideal S16384x16384 .f32) (w : FVec Ideal S16384x5 .f32) (r : Fin 16384) (q : Fin 5) :
    Host.dotGeneral (F := Ideal) dot_S16384x16384_S16384x5_S16384x5_1_0_0_1_n_n none y w (ix2 r q)
      = ∑ k : Fin 16384, (y (ix2 r k) : EReal) * (w (ix2 k q) : EReal) := by
  simp only [Host.dotGeneral]
  rw [Ideal.dotGeneral_apply, ← Equiv.sum_comp (contrEquiv1 dot_S16384x16384_S16384x5_S16384x5_1_0_0_1_n_n 16384 rfl rfl).symm]
  refine Finset.sum_congr rfl fun k _ => ?_
  have hk := contrEquiv1_symm_val dot_S16384x16384_S16384x5_S16384x5_1_0_0_1_n_n 16384 rfl rfl k
  have el : dot_S16384x16384_S16384x5_S16384x5_1_0_0_1_n_n.lhsIdx (ix2 r q) ((contrEquiv1 dot_S16384x16384_S16384x5_S16384x5_1_0_0_1_n_n 16384 rfl rfl).symm k) = ix2 r k := funext fun a => Fin.ext (by
    match a with
    | ⟨0, _⟩ => exact lhs_dot_0 _ _
    | ⟨1, _⟩ => exact (lhs_dot_1 _ _).trans hk)
  have er : dot_S16384x16384_S16384x5_S16384x5_1_0_0_1_n_n.rhsIdx (ix2 r q) ((contrEquiv1 dot_S16384x16384_S16384x5_S16384x5_1_0_0_1_n_n 16384 rfl rfl).symm k) = ix2 k q := funext fun a => Fin.ext (by
    match a with
    | ⟨0, _⟩ => exact (rhs_dot_0 _ _).trans hk
    | ⟨1, _⟩ => exact rhs_dot_1 _ _)
  rw [el, er]

/-! ## Multiply then pad = pad then multiply -/

theorem padded_eq (x : FVec Ideal Cert.KernelIdeal.S12288x16384 .f32) (w : FVec Ideal Cert.KernelIdeal.S16384x5 .f32) :
    concatenate Cert.KernelIdeal.S16384x5 0 [⟨Cert.KernelIdeal.S12288x5, Cert.Spec.hK x w⟩, ⟨Cert.KernelIdeal.S4096x5, broadcastInDim Cert.KernelIdeal.S4096x5 ![] Cert.KernelIdeal.Facts₀.bcast_S_S4096x5 (constant (F := Ideal) Cert.KernelIdeal.S_ .f32 0x00000000#32)⟩] Cert.KernelIdeal.Facts₀.concatenates_S12288x5_S4096x5_S16384x5_d0
      = Host.dotGeneral (F := Ideal) Cert.ReferenceIdeal.dot_S16384x16384_S16384x5_S16384x5_1_0_0_1_n_n none (concatenate Cert.ReferenceIdeal.S16384x16384 0 [⟨Cert.ReferenceIdeal.S12288x16384, x⟩, ⟨Cert.ReferenceIdeal.S4096x16384, broadcastInDim Cert.ReferenceIdeal.S4096x16384 ![] Cert.ReferenceIdeal.Facts₀.bcast_S_S4096x16384 (constant (F := Ideal) Cert.ReferenceIdeal.S_ .f32 0x00000000#32)⟩] Cert.ReferenceIdeal.Facts₀.concatenates_S12288x16384_S4096x16384_S16384x16384_d0) w := by
  funext j
  obtain ⟨r, q, rfl⟩ : ∃ (r : Fin 16384) (q : Fin 5), j = ix2 r q := ⟨j 0, j 1, eq_ix2 j⟩
  rw [dot_apply]
  by_cases hr : r.val < 12288
  · -- a row of the product
    refine (rows_upper _ _ _ r q ⟨r.val, hr⟩ rfl).trans ?_
    rw [Cert.Spec.hK_apply]
    refine Finset.sum_congr rfl fun k _ => ?_
    rw [rows_upper _ _ _ r k ⟨r.val, hr⟩ rfl]
  · -- a row of the padding
    have h2 : r.val - 12288 < 4096 := by have := r.isLt; omega
    have h3 : r.val - 12288 + 12288 = r.val := by omega
    refine (rows_lower _ _ _ r q ⟨r.val - 12288, h2⟩ h3).trans ?_
    rw [zeros_apply]
    refine (Finset.sum_eq_zero fun k _ => ?_).symm
    rw [rows_lower _ _ _ r k ⟨r.val - 12288, h2⟩ h3, zeros_apply, zero_mul]

end Cert.Bridge

end
-- ==== Proof.lean ====
/-
  The certificate's claim. The kernel program computes h = x · W1 block by block (a 12 × 8 grid; for each of the 12 row blocks the
  accumulator sums the 8 products of a 1024 × 2048 block of x with a 2048 × 5 block of W1), pads h with 4096 zero rows and runs
  the two-layer graph-convolution tail on it; the reference pads x with 4096 zero rows, multiplies once and runs the same tail.
  On the extended reals the two padded products are one array: for a row below 12288 the block sums regroup to the whole sum
  Σ_k x(i,k) · W1(k,j) (addition is commutative and associative: no finiteness is used), and for a padding row every summand is
  0 · W1(k,j) = 0. The tail is the same 140 operations applied to that array and to the same inputs, so the results agree.
  The frames: the kernel programs' by the region's three case runs and the launch for a region followed by host lines
  (Proof/KI, Proof/K); the reference's by its run. The idealization rewrote nothing, so `preserves` is trivial.
-/
import proofs.«106697_j46462956208716_1_alg».proof.Defs
import proofs.«106697_j46462956208716_1_alg».proof.Proof.Gen.Kernel
import proofs.«106697_j46462956208716_1_alg».proof.Proof.Gen.KernelIdeal
import proofs.«106697_j46462956208716_1_alg».proof.Proof.Gen.ReferenceIdeal
import proofs.«106697_j46462956208716_1_alg».proof.Proof.Gen.Pre_finite_inputs
import proofs.«106697_j46462956208716_1_alg».proof.Proof.K.Frame
import proofs.«106697_j46462956208716_1_alg».proof.Proof.KI.Frame
import proofs.«106697_j46462956208716_1_alg».proof.Proof.KI.Value
import proofs.«106697_j46462956208716_1_alg».proof.Proof.RefRun
import proofs.«106697_j46462956208716_1_alg».proof.Proof.TailEq
import proofs.«106697_j46462956208716_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with main_v100 at the reference's composed term of the (agreeing) arguments: the kernel's
    region leaves x · W1 in its output array, the padded product is the reference's product of the padded x, and the shared
    tail carries that equality to the result. -/
theorem algebraic : Cert.algebraic_KernelIdeal_ReferenceIdeal := by
  intro m ρ m' ρ' _ hagree
  refine ⟨fun c => Cert.ReferenceIdeal.Value.res_main_v100 m' c, ?_, Cert.ReferenceIdeal.Value.run (F := Ideal) m' ρ'⟩
  refine (θ_run Cert.KernelIdeal.defs _ _).mono (fun r h c => ⟨?_, Cert.KernelIdeal.Fr.post_args m (Cert.KernelIdeal.Fr.dats m) (Cert.KernelIdeal.Fr.A_eq m) r h c⟩)
    (Cert.KernelIdeal.Fr.run_main (F := Ideal) m ρ)
  refine ((h c).2 Cert.KernelIdeal.main_v100 (by decide)).trans ?_
  obtain ⟨h0, h1, h2, h3, h4, h5⟩ := hagree c
  unfold Pipeline.afterTail₀
  refine Cert.TailEq.tail_eq m m' c _ h1 h3 h4 h5 ?_
  rw [Cert.KernelIdeal.Val.arrAt_out m c, h0, h2]
  exact Cert.Bridge.padded_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
